-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S192x96 : Shape := ⟨2, ![192, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S192x96 : S_.BroadcastsInDim S192x96 (![] : Fin 0 → Fin S192x96.rank)
  reducesTo_S192x96_S_d0_1 : S192x96.ReducesTo [0, 1] S_

variable [Facts]

def fn_part2 {F : FTy → Type} [FloatOps F] (main_arg8 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  main_v38

def fn_part1 {F : FTy → Type} [FloatOps F] (main_arg5 : FVec F S192x96 .f32) (main_arg6 : FVec F S96 .f32) (main_arg7 : FVec F S192x96 .f32) (main_arg8 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S192x96 .f32 := Host.absf main_arg5
  let main_cst_6 : FVec F S_ .f32 := constant S_ .f32 0x7F800000#32
  let main_v20 : FVec F S192x96 .f32 := broadcastInDim S192x96 ![] bcast_S_S192x96 main_cst_6
  let main_v21 : IVec S192x96 1 := cmpf .olt main_v19 main_v20
  let main_c_7 : IVec S_ 1 := constantI S_ 1 1#1
  let main_v22 : IVec S_ 1 := (fun x v => Host.reduce IntOp.andi x v reducesTo_S192x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S192x96 .f32 := Host.absf main_arg7
  let main_cst_10 : FVec F S_ .f32 := constant S_ .f32 0x7F800000#32
  let main_v30 : FVec F S192x96 .f32 := broadcastInDim S192x96 ![] bcast_S_S192x96 main_cst_10
  let main_v31 : IVec S192x96 1 := cmpf .olt main_v29 main_v30
  let main_c_11 : IVec S_ 1 := constantI S_ 1 1#1
  let main_v32 : IVec S_ 1 := (fun x v => Host.reduce IntOp.andi x v reducesTo_S192x96_S_d0_1 h_S_) main_v31 main_c_11
  let main_v33 : IVec S_ 1 := andi main_v28 main_v32
  fn_part2 (F := F) main_arg8 main_v33

def fn {F : FTy → Type} [FloatOps F] (main_arg0 : FVec F S50000x96 .f32) (main_arg1 : IVec S2x800000 32) (main_arg2 : FVec F S50000x96 .f32) (main_arg3 : FVec F S96x96 .f32) (main_arg4 : FVec F S96 .f32) (main_arg5 : FVec F S192x96 .f32) (main_arg6 : FVec F S96 .f32) (main_arg7 : FVec F S192x96 .f32) (main_arg8 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x96 .f32 := Host.absf main_arg2
  let main_cst_0 : FVec F S_ .f32 := constant S_ .f32 0x7F800000#32
  let main_v5 : FVec F S50000x96 .f32 := broadcastInDim S50000x96 ![] bcast_S_S50000x96 main_cst_0
  let main_v6 : IVec S50000x96 1 := cmpf .olt main_v4 main_v5
  let main_c_1 : IVec S_ 1 := constantI S_ 1 1#1
  let main_v7 : IVec S_ 1 := (fun x v => Host.reduce IntOp.andi x v reducesTo_S50000x96_S_d0_1 h_S_) main_v6 main_c_1
  let main_v8 : IVec S_ 1 := andi main_v3 main_v7
  let main_v9 : FVec F S96x96 .f32 := Host.absf main_arg3
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S192x96 : Shape := ⟨2, ![192, 96]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x96 : Shape := ⟨2, ![5000, 96]⟩
abbrev S850000x96 : Shape := ⟨2, ![850000, 96]⟩
abbrev S1x96 : Shape := ⟨2, ![1, 96]⟩

abbrev nBuf : Space → Nat
  | .hbm => 110
  | .vmem => 38
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S50000x96, .f32⟩
  | .hbm, ⟨3, _⟩ => ⟨S96x96, .f32⟩
  | .hbm, ⟨4, _⟩ => ⟨S96, .f32⟩
  | .hbm, ⟨5, _⟩ => ⟨S192x96, .f32⟩
  | .hbm, ⟨6, _⟩ => ⟨S96, .f32⟩
  | .hbm, ⟨7, _⟩ => ⟨S192x96, .f32⟩
  | .hbm, ⟨8, _⟩ => ⟨S96, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x96, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x96, .f32⟩
  | .hbm, ⟨59, _⟩ => ⟨S850000x1, .f32⟩
  | .hbm, ⟨60, _⟩ => ⟨S850000x96, .f32⟩
  | .hbm, ⟨61, _⟩ => ⟨S850000x96, .f32⟩
  | .hbm, ⟨62, _⟩ => ⟨S_, .f32⟩
  | .hbm, ⟨63, _⟩ => ⟨S50000x96, .f32⟩
  | .hbm, ⟨64, _⟩ => ⟨S850000x1, .i32⟩
  | .hbm, ⟨65, _⟩ => ⟨S50000x96, .f32⟩
  | .hbm, ⟨66, _⟩ => ⟨S96x96, .f32⟩
  | .hbm, ⟨67, _⟩ => ⟨S96x96, .f32⟩
  | .hbm, ⟨68, _⟩ => ⟨S1x96, .f32⟩
  | .hbm, ⟨69, _⟩ => ⟨S50000x96, .f32⟩
  | .hbm, ⟨70, _⟩ => ⟨S50000x96, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x96, .f32⟩
  | .hbm, ⟨80, _⟩ => ⟨S850000x1, .f32⟩
  | .hbm, ⟨81, _⟩ => ⟨S850000x96, .f32⟩
  | .hbm, ⟨82, _⟩ => ⟨S850000x96, .f32⟩
  | .hbm, ⟨83, _⟩ => ⟨S_, .f32⟩
  | .hbm, ⟨84, _⟩ => ⟨S50000x96, .f32⟩
  | .hbm, ⟨85, _⟩ => ⟨S850000x1, .i32⟩
  | .hbm, ⟨86, _⟩ => ⟨S50000x96, .f32⟩
  | .hbm, ⟨87, _⟩ => ⟨S96x96, .f32⟩
  | .hbm, ⟨88, _⟩ => ⟨S96x96, .f32⟩
  | .hbm, ⟨89, _⟩ => ⟨S1x96, .f32⟩
  | .hbm, ⟨90, _⟩ => ⟨S50000x96, .f32⟩
  | .hbm, ⟨91, _⟩ => ⟨S50000x96, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x96, .f32⟩
  | .hbm, ⟨101, _⟩ => ⟨S850000x1, .f32⟩
  | .hbm, ⟨102, _⟩ => ⟨S850000x96, .f32⟩
  | .hbm, ⟨103, _⟩ => ⟨S850000x96, .f32⟩
  | .hbm, ⟨104, _⟩ => ⟨S_, .f32⟩
  | .hbm, ⟨105, _⟩ => ⟨S50000x96, .f32⟩
  | .hbm, ⟨106, _⟩ => ⟨S850000x1, .i32⟩
  | .hbm, ⟨107, _⟩ => ⟨S50000x96, .f32⟩
  | .hbm, ⟨108, _⟩ => ⟨S1x96, .f32⟩
  | .hbm, ⟨109, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S96x96, .f32⟩
  | .local _ .vmem, ⟨11, _⟩ => ⟨S96x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S1x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S5000x96, .f32⟩
  | .local _ .vmem, ⟨23, _⟩ => ⟨S96x96, .f32⟩
  | .local _ .vmem, ⟨24, _⟩ => ⟨S96x96, .f32⟩
  | .local _ .vmem, ⟨25, _⟩ => ⟨S5000x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S5000x96, .f32⟩
  | .local _ .vmem, ⟨31, _⟩ => ⟨S1x96, .f32⟩
  | .local _ .vmem, ⟨32, _⟩ => ⟨S5000x96, .f32⟩
  | .local _ .vmem, ⟨33, _⟩ => ⟨S5000x96, .f32⟩
  | .local _ .vmem, ⟨34, _⟩ => ⟨S5000x96, .f32⟩
  | .local _ .vmem, ⟨35, _⟩ => ⟨S5000x96, .f32⟩
  | .local _ .vmem, ⟨36, _⟩ => ⟨S5000x96, .f32⟩
  | .local _ .vmem, ⟨37, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47_0 : Ref sig .tc := ⟨.hbm, 69, rfl⟩
abbrev main_v47_1 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64_0 : Ref sig .tc := ⟨.hbm, 90, rfl⟩
abbrev main_v64_1 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S96x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x96 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  slices_S192x96_S96x96_0_0 : S192x96.Slices ![0, 0] S96x96
  slices_S192x96_S96x96_96_0 : S192x96.Slices ![96, 0] S96x96
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  shapeCasts_S96x96_S96x96 : S96x96.ShapeCasts S96x96
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x96_S96x96_S5000x96_1_0_0_1_n_n_wf : DotDims.WF S5000x96 S96x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x96.size a ≤ S96x96.size a
  hwx2_4 : ∀ i : grid2.Coords, EltTy.bits .f32 = 32 ∨ (Rect.block (s := S96x96) S96x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96x96.size a ≤ S96x96.size a
  hwx2_5 : ∀ i : grid2.Coords, EltTy.bits .f32 = 32 ∨ (Rect.block (s := S96x96) S96x96.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x96.size a ≤ S50000x96.size a
  hwx2_6 : ∀ i : grid2.Coords, EltTy.bits .f32 = 32 ∨ (Rect.block (s := S50000x96) S5000x96.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x96.size a ≤ S50000x96.size a
  hwx2_7 : ∀ i : grid2.Coords, EltTy.bits .f32 = 32 ∨ (Rect.block (s := S50000x96) S5000x96.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x96.size a ≤ S50000x96.size a
  hwx3_2 : ∀ i : grid3.Coords, EltTy.bits .f32 = 32 ∨ (Rect.block (s := S50000x96) S5000x96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x96.size a ≤ S50000x96.size a
  hwx3_3 : ∀ i : grid3.Coords, EltTy.bits .f32 = 32 ∨ (Rect.block (s := S50000x96) S5000x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x96.size a ≤ S50000x96.size a
  hwx3_4 : ∀ i : grid3.Coords, EltTy.bits .f32 = 32 ∨ (Rect.block (s := S50000x96) S5000x96.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47_0) S5000x96.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v47_1) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v60) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47_0) S5000x96.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v61) S96x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S96x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64_0) S5000x96.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v64_1) S5000x96.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v77) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64_0) S5000x96.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg2) S5000x96.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v79) S5000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S192x96 : Shape := ⟨2, ![192, 96]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S50000x192 : Shape := ⟨2, ![50000, 192]⟩

abbrev nBuf : Space → Nat
  | .hbm => 127
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S50000x96, .f32⟩
  | .hbm, ⟨3, _⟩ => ⟨S96x96, .f32⟩
  | .hbm, ⟨4, _⟩ => ⟨S96, .f32⟩
  | .hbm, ⟨5, _⟩ => ⟨S192x96, .f32⟩
  | .hbm, ⟨6, _⟩ => ⟨S96, .f32⟩
  | .hbm, ⟨7, _⟩ => ⟨S192x96, .f32⟩
  | .hbm, ⟨8, _⟩ => ⟨S96, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x96, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x96, .f32⟩
  | .hbm, ⟨59, _⟩ => ⟨S850000x1, .f32⟩
  | .hbm, ⟨60, _⟩ => ⟨S850000x96, .f32⟩
  | .hbm, ⟨61, _⟩ => ⟨S850000x96, .f32⟩
  | .hbm, ⟨62, _⟩ => ⟨S_, .f32⟩
  | .hbm, ⟨63, _⟩ => ⟨S50000x96, .f32⟩
  | .hbm, ⟨64, _⟩ => ⟨S850000x1, .i32⟩
  | .hbm, ⟨65, _⟩ => ⟨S50000x96, .f32⟩
  | .hbm, ⟨66, _⟩ => ⟨S1x96, .f32⟩
  | .hbm, ⟨67, _⟩ => ⟨S50000x96, .f32⟩
  | .hbm, ⟨68, _⟩ => ⟨S50000x96, .f32⟩
  | .hbm, ⟨69, _⟩ => ⟨S50000x192, .f32⟩
  | .hbm, ⟨70, _⟩ => ⟨S50000x96, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x96, .f32⟩
  | .hbm, ⟨80, _⟩ => ⟨S850000x1, .f32⟩
  | .hbm, ⟨81, _⟩ => ⟨S850000x96, .f32⟩
  | .hbm, ⟨82, _⟩ => ⟨S850000x96, .f32⟩
  | .hbm, ⟨83, _⟩ => ⟨S_, .f32⟩
  | .hbm, ⟨84, _⟩ => ⟨S50000x96, .f32⟩
  | .hbm, ⟨85, _⟩ => ⟨S850000x1, .i32⟩
  | .hbm, ⟨86, _⟩ => ⟨S50000x96, .f32⟩
  | .hbm, ⟨87, _⟩ => ⟨S1x96, .f32⟩
  | .hbm, ⟨88, _⟩ => ⟨S50000x96, .f32⟩
  | .hbm, ⟨89, _⟩ => ⟨S50000x96, .f32⟩
  | .hbm, ⟨90, _⟩ => ⟨S50000x96, .f32⟩
  | .hbm, ⟨91, _⟩ => ⟨S50000x96, .f32⟩
  | .hbm, ⟨92, _⟩ => ⟨S_, .f32⟩
  | .hbm, ⟨93, _⟩ => ⟨S50000x96, .f32⟩
  | .hbm, ⟨94, _⟩ => ⟨S50000x96, .f32⟩
  | .hbm, ⟨95, _⟩ => ⟨S_, .f32⟩
  | .hbm, ⟨96, _⟩ => ⟨S50000x96, .f32⟩
  | .hbm, ⟨97, _⟩ => ⟨S50000x96, .f32⟩
  | .hbm, ⟨98, _⟩ => ⟨S50000x96, .f32⟩
  | .hbm, ⟨99, _⟩ => ⟨S50000x192, .f32⟩
  | .hbm, ⟨100, _⟩ => ⟨S50000x96, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x96, .f32⟩
  | .hbm, ⟨110, _⟩ => ⟨S850000x1, .f32⟩
  | .hbm, ⟨111, _⟩ => ⟨S850000x96, .f32⟩
  | .hbm, ⟨112, _⟩ => ⟨S850000x96, .f32⟩
  | .hbm, ⟨113, _⟩ => ⟨S_, .f32⟩
  | .hbm, ⟨114, _⟩ => ⟨S50000x96, .f32⟩
  | .hbm, ⟨115, _⟩ => ⟨S850000x1, .i32⟩
  | .hbm, ⟨116, _⟩ => ⟨S50000x96, .f32⟩
  | .hbm, ⟨117, _⟩ => ⟨S1x96, .f32⟩
  | .hbm, ⟨118, _⟩ => ⟨S50000x96, .f32⟩
  | .hbm, ⟨119, _⟩ => ⟨S50000x96, .f32⟩
  | .hbm, ⟨120, _⟩ => ⟨S50000x96, .f32⟩
  | .hbm, ⟨121, _⟩ => ⟨S50000x96, .f32⟩
  | .hbm, ⟨122, _⟩ => ⟨S_, .f32⟩
  | .hbm, ⟨123, _⟩ => ⟨S50000x96, .f32⟩
  | .hbm, ⟨124, _⟩ => ⟨S50000x96, .f32⟩
  | .hbm, ⟨125, _⟩ => ⟨S50000x96, .f32⟩
  | .hbm, ⟨126, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_16 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_17 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  concatenates_S50000x96_S50000x96_S50000x192_d1 : Shape.Concatenates [S50000x96, S50000x96] S50000x192 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x96_S96x96_S50000x96_1_0_0_1_n_n_wf : DotDims.WF S50000x96 S96x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x192_S192x96_S50000x96_1_0_0_1_n_n_wf : DotDims.WF S50000x192 S192x96 S50000x96 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf

class Facts : Prop extends Facts₀ where

variable [Facts]
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.Rows.lean ====
/-
  The row-wise stages of a graph GRU cell, over any number of rows.

  Every dense stage of the cell acts on an `[R, 96]` array ROW BY ROW: an output row depends on the same row of each
  `[R, 96]` operand and on whole small operands (a `[96, 96]` weight, a `[1, 96]` bias). So a stage applied to a block of
  rows of its operands is the same block of rows of the stage applied to the whole arrays (`rows_*`, by unfolding):
  this is what lets a kernel that walks the rows block by block be read as one whole-array function.

  The stages: a product with a `[96, 96]` matrix (`mm`), a bias row added (`addRow`), the sum of two such products
  (`dual`), the logistic gate of a biased array (`gate`), an elementwise product (`had`), and the cell's last line
  `g · h + (1 − g) · tanh (a + b)` (`blend`). Then the one law the certificate needs: a product of two arrays set side by
  side with a `[192, 96]` matrix is the sum of the products of each with its half of the matrix (`dual_eq_sum192`).
-/
import Idealize.ShloMosaic.PureOps.Ideal.Laws
import Idealize.ShloMosaic.Lib.ValueIdx
import Idealize.ShloMosaic.Lib.IdealHost

noncomputable section

namespace Cert.Rows

open Idealize.ShloMosaic Idealize.ShloMosaic.ValueIdx
open scoped BigOperators

/-- An `[R, C]` array of extended reals. -/
abbrev Mat (R C : ℕ) : Type := (⟨2, ![R, C]⟩ : Shape).Idx → EReal

variable {R : ℕ}

/-- `a · w` for a `[96, 96]` matrix `w`: entry `(r, c)` is `Σₖ a (r, k) · w (k, c)`. -/
def mm (a : Mat R 96) (w : Mat 96 96) : Mat R 96 :=
  fun i => ∑ k : Fin 96, a (ix2 (i 0) k) * w (ix2 k (i 1))

/-- The one row `b` added to every row of `a`. -/
def addRow (a : Mat R 96) (b : Mat 1 96) : Mat R 96 :=
  fun i => a i + b (ix2 (0 : Fin 1) (i 1))

/-- `p · w₁ + q · w₂`. -/
def dual (p q : Mat R 96) (w₁ w₂ : Mat 96 96) : Mat R 96 :=
  fun i => mm p w₁ i + mm q w₂ i

/-- The logistic function of `a + b`, entry by entry. -/
def gate (a : Mat R 96) (b : Mat 1 96) : Mat R 96 :=
  fun i => Ideal.logistic (addRow a b i)

/-- The elementwise product. -/
def had (g h : Mat R 96) : Mat R 96 :=
  fun i => g i * h i

/-- `g · h + (1 − g) · tanh (a + b)`, entry by entry, the one being the float word of 1.0. -/
def blend (a : Mat R 96) (b : Mat 1 96) (g h : Mat R 96) : Mat R 96 :=
  fun i => g i * h i + (Ideal.ofBits .f32 0x3F800000#32 - g i) * Ideal.tanh (addRow a b i)

theorem mm_apply (a : Mat R 96) (w : Mat 96 96) (r : Fin R) (c : Fin 96) :
    mm a w (ix2 r c) = ∑ k : Fin 96, a (ix2 r k) * w (ix2 k c) := rfl

theorem addRow_apply (a : Mat R 96) (b : Mat 1 96) (r : Fin R) (c : Fin 96) :
    addRow a b (ix2 r c) = a (ix2 r c) + b (ix2 (0 : Fin 1) c) := rfl

/-! ## Blocks of 5000 rows of a 50000-row array -/

/-- Row `r` of block `t` is row `5000 t + r` of the array. -/
def rowOf (t : Fin 10) (r : Fin 5000) : Fin 50000 :=
  ⟨t.val * 5000 + r.val, by have := t.isLt; have := r.isLt; omega⟩

/-- Block `t` (5000 rows) of a 50000-row array. -/
def rows (t : Fin 10) (a : Mat 50000 96) : Mat 5000 96 :=
  fun y => a (ix2 (rowOf t (y 0)) (y 1))

theorem rows_apply (t : Fin 10) (a : Mat 50000 96) (r : Fin 5000) (c : Fin 96) :
    rows t a (ix2 r c) = a (ix2 (rowOf t r) c) := rfl

/-- Each stage of a block of rows is that block of the stage of the whole arrays. -/
theorem rows_mm (t : Fin 10) (a : Mat 50000 96) (w : Mat 96 96) : mm (rows t a) w = rows t (mm a w) := rfl
theorem rows_addRow (t : Fin 10) (a : Mat 50000 96) (b : Mat 1 96) : addRow (rows t a) b = rows t (addRow a b) := rfl
theorem rows_dual (t : Fin 10) (p q : Mat 50000 96) (w₁ w₂ : Mat 96 96) :
    dual (rows t p) (rows t q) w₁ w₂ = rows t (dual p q w₁ w₂) := rfl
theorem rows_gate (t : Fin 10) (a : Mat 50000 96) (b : Mat 1 96) : gate (rows t a) b = rows t (gate a b) := rfl
theorem rows_had (t : Fin 10) (g h : Mat 50000 96) : had (rows t g) (rows t h) = rows t (had g h) := rfl
theorem rows_blend (t : Fin 10) (a : Mat 50000 96) (b : Mat 1 96) (g h : Mat 50000 96) :
    blend (rows t a) b (rows t g) (rows t h) = rows t (blend a b g h) := rfl

/-- An array read through an index map that sends `(r, c)` to `(5000 t + r, c)` is block `t` of its rows. -/
theorem read_rows (X : Mat 50000 96) (t : Fin 10) (emb : (⟨2, ![5000, 96]⟩ : Shape).Idx → (⟨2, ![50000, 96]⟩ : Shape).Idx)
    (h0 : ∀ j, (emb j 0).val = t.val * 5000 + (j 0).val) (h1 : ∀ j, (emb j 1).val = (j 1).val) :
    (fun j => X (emb j)) = rows t X :=
  funext fun j => congrArg X (funext fun a => Fin.ext (by
    match a with
    | ⟨0, _⟩ => exact h0 j
    | ⟨1, _⟩ => exact h1 j))

/-- An array read through an index map that moves nothing is the array. -/
theorem read_same {S : Shape} (X : S.Idx → EReal) (emb : S.Idx → S.Idx) (h : ∀ j a, (emb j a).val = (j a).val) :
    (fun j => X (emb j)) = X :=
  funext fun j => congrArg X (funext fun a => Fin.ext (h j a))

/-- The zero offsets of a whole-buffer access, however they are spelt. -/
theorem zero_offsets : (![0, 0] : Fin 2 → Nat) = fun _ => 0 := funext fun a => by fin_cases a <;> rfl

/-- Every row of the array lies in the block its quotient by 5000 names. -/
theorem row_block (i : ℕ) (h : i < 50000) : i / 5000 < 10 ∧ i / 5000 * 5000 ≤ i ∧ i < i / 5000 * 5000 + 5000 := by omega

/-! ## Two products for one: a `[192, 96]` matrix cut in two -/

/-- A sum over 192 terms is the sum of its first 96 and its last 96. -/
theorem sum192 (f : Fin 192 → EReal) :
    ∑ k : Fin 192, f k = (∑ k : Fin 96, f ⟨k.val, by have := k.isLt; omega⟩) + ∑ k : Fin 96, f ⟨96 + k.val, by have := k.isLt; omega⟩ := by
  have h := Fin.sum_univ_add (M := EReal) (a := 96) (b := 96) f
  refine h.trans ?_
  refine congrArg₂ (· + ·) (Finset.sum_congr rfl fun k _ => congrArg f (Fin.ext rfl)) (Finset.sum_congr rfl fun k _ => congrArg f (Fin.ext rfl))

/-- A `[96]` array as the one row of a `[1, 96]` array. -/
def biasRow (x : (⟨1, ![96]⟩ : Shape).Idx → EReal) : Mat 1 96 := fun i => x (ix1 (i 1))

/-- Rows 0 … 95 of a `[192, 96]` matrix. -/
def topHalf (W : Mat 192 96) : Mat 96 96 :=
  fun i => W (ix2 ⟨(i 0).val, by have h : (i 0).val < 96 := (i 0).isLt; omega⟩ (i 1))

/-- Rows 96 … 191 of a `[192, 96]` matrix. -/
def botHalf (W : Mat 192 96) : Mat 96 96 :=
  fun i => W (ix2 ⟨96 + (i 0).val, by have h : (i 0).val < 96 := (i 0).isLt; omega⟩ (i 1))

/-- Two `[R, 96]` arrays side by side: column `k` of the joined array. -/
def side (p q : Mat R 96) (r : Fin R) (k : Fin 192) : EReal :=
  if hk : k.val < 96 then p (ix2 r ⟨k.val, hk⟩) else q (ix2 r ⟨k.val - 96, by have := k.isLt; omega⟩)

/-- The product of two arrays set side by side with a `[192, 96]` matrix is the sum of the products of each with its half of
    the matrix: the sum over 192 columns split at 96. -/
theorem dual_eq_sum192 (p q : Mat R 96) (W : Mat 192 96) (r : Fin R) (c : Fin 96) :
    ∑ k : Fin 192, side p q r k * W (ix2 k c) = dual p q (topHalf W) (botHalf W) (ix2 r c) := by
  rw [sum192]
  refine congrArg₂ (· + ·) (Finset.sum_congr rfl fun k _ => ?_) (Finset.sum_congr rfl fun k _ => ?_)
  · have hk : k.val < 96 := k.isLt
    show side p q r ⟨k.val, _⟩ * _ = p (ix2 r k) * topHalf W (ix2 k c)
    unfold side
    rw [dif_pos hk]
    rfl
  · have hk : ¬ (96 + k.val < 96) := by omega
    show side p q r ⟨96 + k.val, _⟩ * _ = q (ix2 r k) * botHalf W (ix2 k c)
    unfold side
    rw [dif_neg hk]
    refine congrArg₂ (· * ·) (congrArg q (congrArg (ix2 r) (Fin.ext ?_))) rfl
    show 96 + k.val - 96 = k.val
    omega

end Cert.Rows

end
-- ==== Proof.Pay.lean ====
/-
  The bodies' arithmetic as row-wise stages.

  What each kernel body stores, as a pure function of what it loads (the payloads of the generated skeleton), is one of
  the row-wise stages of Rows.lean applied to its loaded blocks. At the extended reals a cut to bf16 is the identity, a
  cast of a shape to itself is the identity, a `[1, 96]` row broadcast over the rows reads its one row, and a matrix
  product into the zero accumulator is the plain sum over the contracted axis.
-/
import proofs.«102963_j37297495998610_1_alg».proof.Proof.Gen.KernelIdeal.Skeleton
import proofs.«102963_j37297495998610_1_alg».proof.Proof.LibRowOps
import proofs.«102963_j37297495998610_1_alg».proof.Proof.Rows
import Idealize.ShloMosaic.Lib.ValueLayout
import Idealize.ShloMosaic.Lib.Pipeline.Value

noncomputable section

namespace Cert.KernelIdeal.Pay

open Idealize.ShloMosaic Idealize.ShloMosaic.ValueIdx
open Cert.KernelIdeal Cert.KernelIdeal.Gen Cert.Rows
open scoped BigOperators

/-- A product of a `[5000, 96]` block with a `[96, 96]` matrix, both cut to bf16, into the zero accumulator. -/
theorem matmul_eq (a : Vec Ideal S5000x96 .f32) (w : Vec Ideal S96x96 .f32) :
    matmul (F := Ideal) dot_S5000x96_S96x96_S5000x96_1_0_0_1_n_n none (truncf .bf16 a bitsLt_bf16_f32) (truncf .bf16 w bitsLt_bf16_f32)
      (constant (F := Ideal) S5000x96 .f32 0x00000000#32) = mm a w := by
  funext j
  obtain ⟨r, q, rfl⟩ : ∃ (r : Fin 5000) (q : Fin 96), j = ix2 r q := ⟨j 0, j 1, eq_ix2 j⟩
  exact Cert.RowOps.matmul_plain_apply dot_S5000x96_S96x96_S5000x96_1_0_0_1_n_n rfl none _ _ r q

/-- A bias row, loaded as `[1, 96]`, broadcast over the rows and added. -/
theorem biased_eq (a : Vec Ideal S5000x96 .f32) (b : Vec Ideal S1x96 .f32) :
    addf (F := Ideal) (φ := .f32) (shapeCast S5000x96 a shapeCasts_S5000x96_S5000x96)
      (broadcastTo S5000x96 (shapeCast S1x96 (shapeCast S1x96 b shapeCasts_S1x96_S1x96) shapeCasts_S1x96_S1x96) broadcasts_S1x96_S5000x96)
      = addRow a b := by
  funext j
  obtain ⟨r, q, rfl⟩ : ∃ (r : Fin 5000) (q : Fin 96), j = ix2 r q := ⟨j 0, j 1, eq_ix2 j⟩
  rw [addf_apply, shapeCast_self, shapeCast_self, shapeCast_self, broadcastTo_1b_ab_apply]
  rfl

/-- Region 0 stores `x · w`. -/
theorem pay0 (x : Vec Ideal S5000x96 .f32) (w : Vec Ideal S96x96 .f32) : k0_pay1 (F := Ideal) x w = mm x w := by
  unfold k0_pay1
  exact matmul_eq x w

/-- Region 1's first output: the aggregate plus the bias row. -/
theorem pay1_1 (a : Vec Ideal S5000x96 .f32) (b : Vec Ideal S1x96 .f32) : k1_pay1 (F := Ideal) a b = addRow a b := by
  unfold k1_pay1
  exact biased_eq a b

/-- Region 1's second output: `(a + b) · w₁ + h · w₂`. -/
theorem pay1_2 (a : Vec Ideal S5000x96 .f32) (b : Vec Ideal S1x96 .f32) (h : Vec Ideal S5000x96 .f32)
    (w₁ w₂ : Vec Ideal S96x96 .f32) : k1_pay2 (F := Ideal) a b h w₁ w₂ = dual (addRow a b) h w₁ w₂ := by
  unfold k1_pay2
  rw [pay1_1]
  show addf (F := Ideal) (φ := .f32)
      (matmul (F := Ideal) dot_S5000x96_S96x96_S5000x96_1_0_0_1_n_n none (truncf .bf16 (addRow a b) bitsLt_bf16_f32)
        (truncf .bf16 (shapeCast S96x96 w₁ shapeCasts_S96x96_S96x96) bitsLt_bf16_f32) (constant (F := Ideal) S5000x96 .f32 0x00000000#32))
      (matmul (F := Ideal) dot_S5000x96_S96x96_S5000x96_1_0_0_1_n_n none (truncf .bf16 h bitsLt_bf16_f32)
        (truncf .bf16 (shapeCast S96x96 w₂ shapeCasts_S96x96_S96x96) bitsLt_bf16_f32) (constant (F := Ideal) S5000x96 .f32 0x00000000#32))
      = dual (addRow a b) h w₁ w₂
  rw [shapeCast_self, shapeCast_self, matmul_eq, matmul_eq]
  rfl

/-- Region 2's first output: the gate. -/
theorem pay2_1 (a : Vec Ideal S5000x96 .f32) (b : Vec Ideal S1x96 .f32) : k2_pay1 (F := Ideal) a b = gate a b := by
  unfold k2_pay1
  show logistic (F := Ideal) (φ := .f32) (addf (F := Ideal) (φ := .f32) (shapeCast S5000x96 a shapeCasts_S5000x96_S5000x96)
      (broadcastTo S5000x96 (shapeCast S1x96 (shapeCast S1x96 b shapeCasts_S1x96_S1x96) shapeCasts_S1x96_S1x96) broadcasts_S1x96_S5000x96))
      = gate a b
  rw [biased_eq]
  rfl

/-- Region 2's second output: `x · w₁ + (gate · h) · w₂`. -/
theorem pay2_2 (a : Vec Ideal S5000x96 .f32) (b : Vec Ideal S1x96 .f32) (h x : Vec Ideal S5000x96 .f32)
    (w₁ w₂ : Vec Ideal S96x96 .f32) : k2_pay2 (F := Ideal) a b h x w₁ w₂ = dual x (had (gate a b) h) w₁ w₂ := by
  unfold k2_pay2
  rw [pay2_1]
  show addf (F := Ideal) (φ := .f32)
      (matmul (F := Ideal) dot_S5000x96_S96x96_S5000x96_1_0_0_1_n_n none
        (truncf .bf16 (shapeCast S5000x96 x shapeCasts_S5000x96_S5000x96) bitsLt_bf16_f32)
        (truncf .bf16 (shapeCast S96x96 w₁ shapeCasts_S96x96_S96x96) bitsLt_bf16_f32) (constant (F := Ideal) S5000x96 .f32 0x00000000#32))
      (matmul (F := Ideal) dot_S5000x96_S96x96_S5000x96_1_0_0_1_n_n none (truncf .bf16 (mulf (F := Ideal) (φ := .f32) (gate a b) h) bitsLt_bf16_f32)
        (truncf .bf16 (shapeCast S96x96 w₂ shapeCasts_S96x96_S96x96) bitsLt_bf16_f32) (constant (F := Ideal) S5000x96 .f32 0x00000000#32))
      = dual x (had (gate a b) h) w₁ w₂
  rw [shapeCast_self, shapeCast_self, shapeCast_self, matmul_eq, matmul_eq]
  rfl

/-- Region 3's output: `g · h + (1 − g) · tanh (a + b)`. -/
theorem pay3 (a : Vec Ideal S5000x96 .f32) (b : Vec Ideal S1x96 .f32) (g h : Vec Ideal S5000x96 .f32) :
    k3_pay1 (F := Ideal) a b g h = blend a b g h := by
  unfold k3_pay1
  show addf (F := Ideal) (φ := .f32) (mulf (F := Ideal) (φ := .f32) (shapeCast S5000x96 g shapeCasts_S5000x96_S5000x96) h)
      (mulf (F := Ideal) (φ := .f32) (subf (F := Ideal) (φ := .f32) (broadcast S5000x96 (Scalar.ofBits (F := Ideal) .f32 0x3F800000#32)) (shapeCast S5000x96 g shapeCasts_S5000x96_S5000x96))
        (tanh (F := Ideal) (φ := .f32) (addf (F := Ideal) (φ := .f32) (shapeCast S5000x96 a shapeCasts_S5000x96_S5000x96)
          (broadcastTo S5000x96 (shapeCast S1x96 (shapeCast S1x96 b shapeCasts_S1x96_S1x96) shapeCasts_S1x96_S1x96) broadcasts_S1x96_S5000x96))))
      = blend a b g h
  rw [biased_eq, shapeCast_self]
  rfl

end Cert.KernelIdeal.Pay

end
-- ==== Proof.Blocks0.lean ====
/-
  Region 0 (`h_x = x · Wx`) as one whole-array function.

  The region walks the 50000 rows of `x` in ten blocks of 5000; at each block it loads the block and the whole weight
  matrix and stores their product. Block `t` of the product of the whole arrays is the product of block `t` with the
  matrix (Rows.lean), the ten output blocks tile the result array, so the array ends holding `x · Wx`.
-/
import proofs.«102963_j37297495998610_1_alg».proof.Proof.Gen.KernelIdeal.Frame
import proofs.«102963_j37297495998610_1_alg».proof.Proof.Pay
import Idealize.ShloMosaic.Lib.Pipeline.Value

set_option maxRecDepth 16384

noncomputable section

namespace Cert.KernelIdeal.Blocks0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Rows

variable (V : (c : Dev nD) → (b : Ref sig .tc) → Buf (Elt Ideal) ((c : Thread nD τ).loc b))

/-- A grid point as a block number. -/
def pt (t : Fin cfg0.N) : Fin 10 := ⟨t.val, lt_of_lt_of_eq t.isLt N_0⟩

/-- The printed index maps, decided over the grid: the row-blocked windows sit at block row `t`, the whole ones at zero. -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)

/-- Window 0's block at point `t` is block `t` of `x`'s rows. -/
theorem blk_0 (c : Dev nD) (t : Fin cfg0.N) : iblk0 V c 0 t = rows (pt t) (V c main_arg0) :=
  read_rows (V c main_arg0) (pt t) ((cfg0.win 0).blk t).view.emb
    (fun j => by show win0_0.index t (0 : Fin 2) * 5000 + 1 * (j 0).val = t.val * 5000 + (j 0).val; rw [(idx_0 t).1]; omega)
    (fun j => by show win0_0.index t (1 : Fin 2) * 96 + 1 * (j 1).val = (j 1).val; rw [(idx_0 t).2]; omega)

/-- Window 1's block at every point is the whole weight matrix. -/
theorem blk_1 (c : Dev nD) (t : Fin cfg0.N) : iblk0 V c 1 t = V c main_arg3 :=
  read_same (V c main_arg3) ((cfg0.win 1).blk t).view.emb (fun j a => by
    match a with
    | ⟨0, _⟩ => show win0_1.index t (0 : Fin 2) * 96 + 1 * (j 0).val = (j 0).val; rw [(idx_1 t).1]; omega
    | ⟨1, _⟩ => show win0_1.index t (1 : Fin 2) * 96 + 1 * (j 1).val = (j 1).val; rw [(idx_1 t).2]; omega)

/-- Block `t` of any contents of the result array, as the write-back at point `t` cuts it. -/
theorem out_2 (G : Mat 50000 96) (t : Fin cfg0.N) :
    (cfg0.win 2).cut (grid0.coords t) (rows (pt t) G) = ((cfg0.win 2).blk t).view.read (Elt Ideal) G :=
  (read_rows G (pt t) ((cfg0.win 2).blk t).view.emb
    (fun j => by show win0_2.index t (0 : Fin 2) * 5000 + 1 * (j 0).val = t.val * 5000 + (j 0).val; rw [(idx_2 t).1]; omega)
    (fun j => by show win0_2.index t (1 : Fin 2) * 96 + 1 * (j 1).val = (j 1).val; rw [(idx_2 t).2]; omega)).symm

/-- What point `t` writes back is block `t` of `x · Wx`. -/
theorem flushed_2 (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x96) zero_offsets, View.ld_unit_zero (S := S96x96) zero_offsets]
  rw [blk_0, blk_1, Pay.pay0, rows_mm]
  exact out_2 _ t

/-- An index of the result array is in point `t`'s block iff each coordinate is in the block's range on its axis. -/
theorem mem_2 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v30).slice (win0_2.rect t)).set ↔ _
  rw [View.set_slice_whole, Rect.mem_set_unit]
  exact Iff.rfl

/-- The ten blocks tile the result array: row `r` lies in block `r / 5000`. -/
theorem cover_2 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  obtain ⟨hq, hlo, hhi⟩ := row_block (i 0).val hi0
  refine ⟨⟨(i 0).val / 5000, lt_of_lt_of_eq hq N_0.symm⟩, flush0_2 _, ?_⟩
  rw [mem_2]
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [(idx_2 _).1]; exact ⟨hlo, hhi⟩
  | ⟨1, _⟩ =>
    show win0_2.index ⟨(i 0).val / 5000, _⟩ (1 : Fin 2) * 96 ≤ (i 1).val ∧ (i 1).val < win0_2.index ⟨(i 0).val / 5000, _⟩ (1 : Fin 2) * 96 + 96
    rw [(idx_2 _).2]; omega

/-- After the region the result array holds `x · Wx`, whatever the contents `V` the region was entered with. -/
theorem closed_2 (c : Dev nD) : (dat0 V c).arrAt 2 cfg0.N = mm (V c main_arg0) (V c main_arg3) :=
  (dat0 V c).arrAt_eq_of_cover 2 _ (fun t _ => flushed_2 V c t) cover_2

end Cert.KernelIdeal.Blocks0

end
-- ==== Proof.Blocks1.lean ====
/-
  Region 1 (`x_gcn = agg + bx`, `h_uh = x_gcn · Wuh[:96] + h · Wuh[96:]`) as whole-array functions.

  The region walks the 50000 rows in ten blocks of 5000: at each block it loads the block of the aggregate and of `h`,
  the whole bias row and the two whole weight matrices, and stores the biased block and the sum of the two products.
  Both outputs are row-wise stages (Rows.lean), so each output array ends holding the stage of the whole arrays.
-/
import proofs.«102963_j37297495998610_1_alg».proof.Proof.Gen.KernelIdeal.Frame
import proofs.«102963_j37297495998610_1_alg».proof.Proof.Pay
import Idealize.ShloMosaic.Lib.Pipeline.Value

set_option maxRecDepth 16384

noncomputable section

namespace Cert.KernelIdeal.Blocks1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Rows

variable (V : (c : Dev nD) → (b : Ref sig .tc) → Buf (Elt Ideal) ((c : Thread nD τ).loc b))

/-- A grid point as a block number. -/
def pt (t : Fin cfg1.N) : Fin 10 := ⟨t.val, lt_of_lt_of_eq t.isLt N_1⟩

/-- The printed index maps, decided over the grid: the row-blocked windows sit at block row `t`, the whole ones at zero. -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = 0 ∧ win1_1.index t (1 : Fin 2) = 0 :=
  (by decide +kernel : ∀ t : Fin grid1.N, _)
theorem idx_2 : ∀ t : Fin cfg1.N, win1_2.index t (0 : Fin 2) = t.val ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = t.val ∧ win1_5.index t (1 : Fin 2) = 0 :=
  (by decide +kernel : ∀ t : Fin grid1.N, _)
theorem idx_6 : ∀ t : Fin cfg1.N, win1_6.index t (0 : Fin 2) = t.val ∧ win1_6.index t (1 : Fin 2) = 0 :=
  (by decide +kernel : ∀ t : Fin grid1.N, _)

/-- Window 0's block at point `t` is block `t` of the aggregate's rows. -/
theorem blk_0 (c : Dev nD) (t : Fin cfg1.N) : iblk1 V c 0 t = rows (pt t) (V c main_v43) :=
  read_rows (V c main_v43) (pt t) ((cfg1.win 0).blk t).view.emb
    (fun j => by show win1_0.index t (0 : Fin 2) * 5000 + 1 * (j 0).val = t.val * 5000 + (j 0).val; rw [(idx_0 t).1]; omega)
    (fun j => by show win1_0.index t (1 : Fin 2) * 96 + 1 * (j 1).val = (j 1).val; rw [(idx_0 t).2]; omega)

/-- Window 1's block at every point is the whole bias row. -/
theorem blk_1 (c : Dev nD) (t : Fin cfg1.N) : iblk1 V c 1 t = V c main_v46 :=
  read_same (V c main_v46) ((cfg1.win 1).blk t).view.emb (fun j a => by
    match a with
    | ⟨0, _⟩ => show win1_1.index t (0 : Fin 2) * 1 + 1 * (j 0).val = (j 0).val; rw [(idx_1 t).1]; omega
    | ⟨1, _⟩ => show win1_1.index t (1 : Fin 2) * 96 + 1 * (j 1).val = (j 1).val; rw [(idx_1 t).2]; omega)

/-- Window 2's block at point `t` is block `t` of `h`'s rows. -/
theorem blk_2 (c : Dev nD) (t : Fin cfg1.N) : iblk1 V c 2 t = rows (pt t) (V c main_arg2) :=
  read_rows (V c main_arg2) (pt t) ((cfg1.win 2).blk t).view.emb
    (fun j => by show win1_2.index t (0 : Fin 2) * 5000 + 1 * (j 0).val = t.val * 5000 + (j 0).val; rw [(idx_2 t).1]; omega)
    (fun j => by show win1_2.index t (1 : Fin 2) * 96 + 1 * (j 1).val = (j 1).val; rw [(idx_2 t).2]; omega)

/-- Windows 3 and 4: the two whole weight matrices. -/
theorem blk_3 (c : Dev nD) (t : Fin cfg1.N) : iblk1 V c 3 t = V c main_v44 :=
  read_same (V c main_v44) ((cfg1.win 3).blk t).view.emb (fun j a => by
    match a with
    | ⟨0, _⟩ => show win1_3.index t (0 : Fin 2) * 96 + 1 * (j 0).val = (j 0).val; rw [(idx_3 t).1]; omega
    | ⟨1, _⟩ => show win1_3.index t (1 : Fin 2) * 96 + 1 * (j 1).val = (j 1).val; rw [(idx_3 t).2]; omega)
theorem blk_4 (c : Dev nD) (t : Fin cfg1.N) : iblk1 V c 4 t = V c main_v45 :=
  read_same (V c main_v45) ((cfg1.win 4).blk t).view.emb (fun j a => by
    match a with
    | ⟨0, _⟩ => show win1_4.index t (0 : Fin 2) * 96 + 1 * (j 0).val = (j 0).val; rw [(idx_4 t).1]; omega
    | ⟨1, _⟩ => show win1_4.index t (1 : Fin 2) * 96 + 1 * (j 1).val = (j 1).val; rw [(idx_4 t).2]; omega)

/-- Block `t` of any contents of each result array, as the write-back at point `t` cuts it. -/
theorem out_5 (G : Mat 50000 96) (t : Fin cfg1.N) :
    (cfg1.win 5).cut (grid1.coords t) (rows (pt t) G) = ((cfg1.win 5).blk t).view.read (Elt Ideal) G :=
  (read_rows G (pt t) ((cfg1.win 5).blk t).view.emb
    (fun j => by show win1_5.index t (0 : Fin 2) * 5000 + 1 * (j 0).val = t.val * 5000 + (j 0).val; rw [(idx_5 t).1]; omega)
    (fun j => by show win1_5.index t (1 : Fin 2) * 96 + 1 * (j 1).val = (j 1).val; rw [(idx_5 t).2]; omega)).symm
theorem out_6 (G : Mat 50000 96) (t : Fin cfg1.N) :
    (cfg1.win 6).cut (grid1.coords t) (rows (pt t) G) = ((cfg1.win 6).blk t).view.read (Elt Ideal) G :=
  (read_rows G (pt t) ((cfg1.win 6).blk t).view.emb
    (fun j => by show win1_6.index t (0 : Fin 2) * 5000 + 1 * (j 0).val = t.val * 5000 + (j 0).val; rw [(idx_6 t).1]; omega)
    (fun j => by show win1_6.index t (1 : Fin 2) * 96 + 1 * (j 1).val = (j 1).val; rw [(idx_6 t).2]; omega)).symm

/-- What point `t` writes back to the first result is block `t` of the biased aggregate. -/
theorem flushed_5 (c : Dev nD) (t : Fin cfg1.N) :
    (dat1 V c).flushed 5 t = ((cfg1.win 5).blk t).view.read (Elt Ideal) (addRow (V c main_v43) (V c main_v46)) := by
  show (cfg1.win 5).cut (grid1.coords t) ((dat1 V c).after 5 t) = _
  rw [after1_5]
  unfold out1_5
  rw [View.canon_unit_zero zero_offsets]
  simp only [View.ld_unit_zero (S := S5000x96) zero_offsets, View.ld_unit_zero (S := S1x96) zero_offsets]
  rw [blk_0, blk_1, Pay.pay1_1, rows_addRow]
  exact out_5 _ t

/-- What point `t` writes back to the second result is block `t` of `(agg + b) · w₁ + h · w₂`. -/
theorem flushed_6 (c : Dev nD) (t : Fin cfg1.N) :
    (dat1 V c).flushed 6 t = ((cfg1.win 6).blk t).view.read (Elt Ideal)
      (dual (addRow (V c main_v43) (V c main_v46)) (V c main_arg2) (V c main_v44) (V c main_v45)) := by
  show (cfg1.win 6).cut (grid1.coords t) ((dat1 V c).after 6 t) = _
  rw [after1_6]
  unfold out1_6
  rw [View.canon_unit_zero zero_offsets]
  simp only [View.ld_unit_zero (S := S5000x96) zero_offsets, View.ld_unit_zero (S := S1x96) zero_offsets,
    View.ld_unit_zero (S := S96x96) zero_offsets]
  rw [blk_0, blk_1, blk_2, blk_3, blk_4, Pay.pay1_2, rows_addRow, rows_dual]
  exact out_6 _ t

/-- An index of a result array is in point `t`'s block iff each coordinate is in the block's range on its axis. -/
theorem mem_5 (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v47_0).slice (win1_5.rect t)).set ↔ _
  rw [View.set_slice_whole, Rect.mem_set_unit]
  exact Iff.rfl
theorem mem_6 (t : Fin cfg1.N) (i : S50000x96.Idx) :
    i ∈ ((cfg1.win 6).blk t).view.set ↔ ∀ a : Fin 2, win1_6.index t a * S5000x96.size a ≤ (i a).val ∧ (i a).val < win1_6.index t a * S5000x96.size a + S5000x96.size a := by
  show i ∈ ((View.whole main_v47_1).slice (win1_6.rect t)).set ↔ _
  rw [View.set_slice_whole, Rect.mem_set_unit]
  exact Iff.rfl

/-- The ten blocks tile each result array: row `r` lies in block `r / 5000`. -/
theorem cover_5 (i : S50000x96.Idx) : ∃ t : Fin cfg1.N, (cfg1.win 5).flush t = true ∧ i ∈ ((cfg1.win 5).blk t).view.set := by
  have hi0 : (i 0).val < 50000 := (i 0).isLt
  have hi1 : (i 1).val < 96 := (i 1).isLt
  obtain ⟨hq, hlo, hhi⟩ := row_block (i 0).val hi0
  refine ⟨⟨(i 0).val / 5000, lt_of_lt_of_eq hq N_1.symm⟩, flush1_5 _, ?_⟩
  rw [mem_5]
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [(idx_5 _).1]; exact ⟨hlo, hhi⟩
  | ⟨1, _⟩ =>
    show win1_5.index ⟨(i 0).val / 5000, _⟩ (1 : Fin 2) * 96 ≤ (i 1).val ∧ (i 1).val < win1_5.index ⟨(i 0).val / 5000, _⟩ (1 : Fin 2) * 96 + 96
    rw [(idx_5 _).2]; omega
theorem cover_6 (i : S50000x96.Idx) : ∃ t : Fin cfg1.N, (cfg1.win 6).flush t = true ∧ i ∈ ((cfg1.win 6).blk t).view.set := by
  have hi0 : (i 0).val < 50000 := (i 0).isLt
  have hi1 : (i 1).val < 96 := (i 1).isLt
  obtain ⟨hq, hlo, hhi⟩ := row_block (i 0).val hi0
  refine ⟨⟨(i 0).val / 5000, lt_of_lt_of_eq hq N_1.symm⟩, flush1_6 _, ?_⟩
  rw [mem_6]
  intro a
  match a with
  | ⟨0, _⟩ =>
    show win1_6.index ⟨(i 0).val / 5000, _⟩ (0 : Fin 2) * 5000 ≤ (i 0).val ∧ (i 0).val < win1_6.index ⟨(i 0).val / 5000, _⟩ (0 : Fin 2) * 5000 + 5000
    rw [(idx_6 _).1]; exact ⟨hlo, hhi⟩
  | ⟨1, _⟩ =>
    show win1_6.index ⟨(i 0).val / 5000, _⟩ (1 : Fin 2) * 96 ≤ (i 1).val ∧ (i 1).val < win1_6.index ⟨(i 0).val / 5000, _⟩ (1 : Fin 2) * 96 + 96
    rw [(idx_6 _).2]; omega

/-- After the region the two result arrays hold the stages of the whole arrays, whatever the contents `V` at entry. -/
theorem closed_5 (c : Dev nD) : (dat1 V c).arrAt 5 cfg1.N = addRow (V c main_v43) (V c main_v46) :=
  (dat1 V c).arrAt_eq_of_cover 5 _ (fun t _ => flushed_5 V c t) cover_5
theorem closed_6 (c : Dev nD) :
    (dat1 V c).arrAt 6 cfg1.N = dual (addRow (V c main_v43) (V c main_v46)) (V c main_arg2) (V c main_v44) (V c main_v45) :=
  (dat1 V c).arrAt_eq_of_cover 6 _ (fun t _ => flushed_6 V c t) cover_6

end Cert.KernelIdeal.Blocks1

end
-- ==== Proof.Blocks2.lean ====
/-
  Region 2 (`g = logistic (agg + buh)`, `h_ch = x_gcn · Wch[:96] + (g · h) · Wch[96:]`) as whole-array functions.

  The region walks the 50000 rows in ten blocks of 5000: at each block it loads the block of the aggregate, of `h` and of
  `x_gcn`, the whole bias row and the two whole weight matrices, and stores the gate's block and the sum of the two
  products. Both outputs are row-wise stages (Rows.lean), so each output array ends holding the stage of the whole arrays.
-/
import proofs.«102963_j37297495998610_1_alg».proof.Proof.Gen.KernelIdeal.Frame
import proofs.«102963_j37297495998610_1_alg».proof.Proof.Pay
import Idealize.ShloMosaic.Lib.Pipeline.Value

set_option maxRecDepth 16384

noncomputable section

namespace Cert.KernelIdeal.Blocks2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Rows

variable (V : (c : Dev nD) → (b : Ref sig .tc) → Buf (Elt Ideal) ((c : Thread nD τ).loc b))

/-- A grid point as a block number. -/
def pt (t : Fin cfg2.N) : Fin 10 := ⟨t.val, lt_of_lt_of_eq t.isLt N_2⟩

/-- The printed index maps, decided over the grid: the row-blocked windows sit at block row `t`, the whole ones at zero. -/
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = 0 ∧ win2_1.index t (1 : Fin 2) = 0 :=
  (by decide +kernel : ∀ t : Fin grid2.N, _)
theorem idx_2 : ∀ t : Fin cfg2.N, win2_2.index t (0 : Fin 2) = t.val ∧ win2_2.index t (1 : Fin 2) = 0 :=
  (by decide +kernel : ∀ t : Fin grid2.N, _)
theorem idx_3 : ∀ t : Fin cfg2.N, win2_3.index t (0 : Fin 2) = t.val ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = t.val ∧ win2_6.index t (1 : Fin 2) = 0 :=
  (by decide +kernel : ∀ t : Fin grid2.N, _)
theorem idx_7 : ∀ t : Fin cfg2.N, win2_7.index t (0 : Fin 2) = t.val ∧ win2_7.index t (1 : Fin 2) = 0 :=
  (by decide +kernel : ∀ t : Fin grid2.N, _)

/-- Window 0's block at point `t` is block `t` of the aggregate's rows. -/
theorem blk_0 (c : Dev nD) (t : Fin cfg2.N) : iblk2 V c 0 t = rows (pt t) (V c main_v60) :=
  read_rows (V c main_v60) (pt t) ((cfg2.win 0).blk t).view.emb
    (fun j => by show win2_0.index t (0 : Fin 2) * 5000 + 1 * (j 0).val = t.val * 5000 + (j 0).val; rw [(idx_0 t).1]; omega)
    (fun j => by show win2_0.index t (1 : Fin 2) * 96 + 1 * (j 1).val = (j 1).val; rw [(idx_0 t).2]; omega)

/-- Window 1's block at every point is the whole bias row. -/
theorem blk_1 (c : Dev nD) (t : Fin cfg2.N) : iblk2 V c 1 t = V c main_v63 :=
  read_same (V c main_v63) ((cfg2.win 1).blk t).view.emb (fun j a => by
    match a with
    | ⟨0, _⟩ => show win2_1.index t (0 : Fin 2) * 1 + 1 * (j 0).val = (j 0).val; rw [(idx_1 t).1]; omega
    | ⟨1, _⟩ => show win2_1.index t (1 : Fin 2) * 96 + 1 * (j 1).val = (j 1).val; rw [(idx_1 t).2]; omega)

/-- Window 2's block at point `t` is block `t` of `h`'s rows. -/
theorem blk_2 (c : Dev nD) (t : Fin cfg2.N) : iblk2 V c 2 t = rows (pt t) (V c main_arg2) :=
  read_rows (V c main_arg2) (pt t) ((cfg2.win 2).blk t).view.emb
    (fun j => by show win2_2.index t (0 : Fin 2) * 5000 + 1 * (j 0).val = t.val * 5000 + (j 0).val; rw [(idx_2 t).1]; omega)
    (fun j => by show win2_2.index t (1 : Fin 2) * 96 + 1 * (j 1).val = (j 1).val; rw [(idx_2 t).2]; omega)

/-- Window 3's block at point `t` is block `t` of `x_gcn`'s rows. -/
theorem blk_3 (c : Dev nD) (t : Fin cfg2.N) : iblk2 V c 3 t = rows (pt t) (V c main_v47_0) :=
  read_rows (V c main_v47_0) (pt t) ((cfg2.win 3).blk t).view.emb
    (fun j => by show win2_3.index t (0 : Fin 2) * 5000 + 1 * (j 0).val = t.val * 5000 + (j 0).val; rw [(idx_3 t).1]; omega)
    (fun j => by show win2_3.index t (1 : Fin 2) * 96 + 1 * (j 1).val = (j 1).val; rw [(idx_3 t).2]; omega)

/-- Windows 4 and 5: the two whole weight matrices. -/
theorem blk_4 (c : Dev nD) (t : Fin cfg2.N) : iblk2 V c 4 t = V c main_v61 :=
  read_same (V c main_v61) ((cfg2.win 4).blk t).view.emb (fun j a => by
    match a with
    | ⟨0, _⟩ => show win2_4.index t (0 : Fin 2) * 96 + 1 * (j 0).val = (j 0).val; rw [(idx_4 t).1]; omega
    | ⟨1, _⟩ => show win2_4.index t (1 : Fin 2) * 96 + 1 * (j 1).val = (j 1).val; rw [(idx_4 t).2]; omega)
theorem blk_5 (c : Dev nD) (t : Fin cfg2.N) : iblk2 V c 5 t = V c main_v62 :=
  read_same (V c main_v62) ((cfg2.win 5).blk t).view.emb (fun j a => by
    match a with
    | ⟨0, _⟩ => show win2_5.index t (0 : Fin 2) * 96 + 1 * (j 0).val = (j 0).val; rw [(idx_5 t).1]; omega
    | ⟨1, _⟩ => show win2_5.index t (1 : Fin 2) * 96 + 1 * (j 1).val = (j 1).val; rw [(idx_5 t).2]; omega)

/-- Block `t` of any contents of each result array, as the write-back at point `t` cuts it. -/
theorem out_6 (G : Mat 50000 96) (t : Fin cfg2.N) :
    (cfg2.win 6).cut (grid2.coords t) (rows (pt t) G) = ((cfg2.win 6).blk t).view.read (Elt Ideal) G :=
  (read_rows G (pt t) ((cfg2.win 6).blk t).view.emb
    (fun j => by show win2_6.index t (0 : Fin 2) * 5000 + 1 * (j 0).val = t.val * 5000 + (j 0).val; rw [(idx_6 t).1]; omega)
    (fun j => by show win2_6.index t (1 : Fin 2) * 96 + 1 * (j 1).val = (j 1).val; rw [(idx_6 t).2]; omega)).symm
theorem out_7 (G : Mat 50000 96) (t : Fin cfg2.N) :
    (cfg2.win 7).cut (grid2.coords t) (rows (pt t) G) = ((cfg2.win 7).blk t).view.read (Elt Ideal) G :=
  (read_rows G (pt t) ((cfg2.win 7).blk t).view.emb
    (fun j => by show win2_7.index t (0 : Fin 2) * 5000 + 1 * (j 0).val = t.val * 5000 + (j 0).val; rw [(idx_7 t).1]; omega)
    (fun j => by show win2_7.index t (1 : Fin 2) * 96 + 1 * (j 1).val = (j 1).val; rw [(idx_7 t).2]; omega)).symm

/-- What point `t` writes back to the first result is block `t` of the gate. -/
theorem flushed_6 (c : Dev nD) (t : Fin cfg2.N) :
    (dat2 V c).flushed 6 t = ((cfg2.win 6).blk t).view.read (Elt Ideal) (gate (V c main_v60) (V c main_v63)) := by
  show (cfg2.win 6).cut (grid2.coords t) ((dat2 V c).after 6 t) = _
  rw [after2_6]
  unfold out2_6
  rw [View.canon_unit_zero zero_offsets]
  simp only [View.ld_unit_zero (S := S5000x96) zero_offsets, View.ld_unit_zero (S := S1x96) zero_offsets]
  rw [blk_0, blk_1, Pay.pay2_1, rows_gate]
  exact out_6 _ t

/-- What point `t` writes back to the second result is block `t` of `x_gcn · w₁ + (g · h) · w₂`. -/
theorem flushed_7 (c : Dev nD) (t : Fin cfg2.N) :
    (dat2 V c).flushed 7 t = ((cfg2.win 7).blk t).view.read (Elt Ideal)
      (dual (V c main_v47_0) (had (gate (V c main_v60) (V c main_v63)) (V c main_arg2)) (V c main_v61) (V c main_v62)) := by
  show (cfg2.win 7).cut (grid2.coords t) ((dat2 V c).after 7 t) = _
  rw [after2_7]
  unfold out2_7
  rw [View.canon_unit_zero zero_offsets]
  simp only [View.ld_unit_zero (S := S5000x96) zero_offsets, View.ld_unit_zero (S := S1x96) zero_offsets,
    View.ld_unit_zero (S := S96x96) zero_offsets]
  rw [blk_0, blk_1, blk_2, blk_3, blk_4, blk_5, Pay.pay2_2, rows_gate, rows_had, rows_dual]
  exact out_7 _ t

/-- An index of a result array is in point `t`'s block iff each coordinate is in the block's range on its axis. -/
theorem mem_6 (t : Fin cfg2.N) (i : S50000x96.Idx) :
    i ∈ ((cfg2.win 6).blk t).view.set ↔ ∀ a : Fin 2, win2_6.index t a * S5000x96.size a ≤ (i a).val ∧ (i a).val < win2_6.index t a * S5000x96.size a + S5000x96.size a := by
  show i ∈ ((View.whole main_v64_0).slice (win2_6.rect t)).set ↔ _
  rw [View.set_slice_whole, Rect.mem_set_unit]
  exact Iff.rfl
theorem mem_7 (t : Fin cfg2.N) (i : S50000x96.Idx) :
    i ∈ ((cfg2.win 7).blk t).view.set ↔ ∀ a : Fin 2, win2_7.index t a * S5000x96.size a ≤ (i a).val ∧ (i a).val < win2_7.index t a * S5000x96.size a + S5000x96.size a := by
  show i ∈ ((View.whole main_v64_1).slice (win2_7.rect t)).set ↔ _
  rw [View.set_slice_whole, Rect.mem_set_unit]
  exact Iff.rfl

/-- The ten blocks tile each result array: row `r` lies in block `r / 5000`. -/
theorem cover_6 (i : S50000x96.Idx) : ∃ t : Fin cfg2.N, (cfg2.win 6).flush t = true ∧ i ∈ ((cfg2.win 6).blk t).view.set := by
  have hi0 : (i 0).val < 50000 := (i 0).isLt
  have hi1 : (i 1).val < 96 := (i 1).isLt
  obtain ⟨hq, hlo, hhi⟩ := row_block (i 0).val hi0
  refine ⟨⟨(i 0).val / 5000, lt_of_lt_of_eq hq N_2.symm⟩, flush2_6 _, ?_⟩
  rw [mem_6]
  intro a
  match a with
  | ⟨0, _⟩ =>
    show win2_6.index ⟨(i 0).val / 5000, _⟩ (0 : Fin 2) * 5000 ≤ (i 0).val ∧ (i 0).val < win2_6.index ⟨(i 0).val / 5000, _⟩ (0 : Fin 2) * 5000 + 5000
    rw [(idx_6 _).1]; exact ⟨hlo, hhi⟩
  | ⟨1, _⟩ =>
    show win2_6.index ⟨(i 0).val / 5000, _⟩ (1 : Fin 2) * 96 ≤ (i 1).val ∧ (i 1).val < win2_6.index ⟨(i 0).val / 5000, _⟩ (1 : Fin 2) * 96 + 96
    rw [(idx_6 _).2]; omega
theorem cover_7 (i : S50000x96.Idx) : ∃ t : Fin cfg2.N, (cfg2.win 7).flush t = true ∧ i ∈ ((cfg2.win 7).blk t).view.set := by
  have hi0 : (i 0).val < 50000 := (i 0).isLt
  have hi1 : (i 1).val < 96 := (i 1).isLt
  obtain ⟨hq, hlo, hhi⟩ := row_block (i 0).val hi0
  refine ⟨⟨(i 0).val / 5000, lt_of_lt_of_eq hq N_2.symm⟩, flush2_7 _, ?_⟩
  rw [mem_7]
  intro a
  match a with
  | ⟨0, _⟩ =>
    show win2_7.index ⟨(i 0).val / 5000, _⟩ (0 : Fin 2) * 5000 ≤ (i 0).val ∧ (i 0).val < win2_7.index ⟨(i 0).val / 5000, _⟩ (0 : Fin 2) * 5000 + 5000
    rw [(idx_7 _).1]; exact ⟨hlo, hhi⟩
  | ⟨1, _⟩ =>
    show win2_7.index ⟨(i 0).val / 5000, _⟩ (1 : Fin 2) * 96 ≤ (i 1).val ∧ (i 1).val < win2_7.index ⟨(i 0).val / 5000, _⟩ (1 : Fin 2) * 96 + 96
    rw [(idx_7 _).2]; omega

/-- After the region the two result arrays hold the stages of the whole arrays, whatever the contents `V` at entry. -/
theorem closed_6 (c : Dev nD) : (dat2 V c).arrAt 6 cfg2.N = gate (V c main_v60) (V c main_v63) :=
  (dat2 V c).arrAt_eq_of_cover 6 _ (fun t _ => flushed_6 V c t) cover_6
theorem closed_7 (c : Dev nD) :
    (dat2 V c).arrAt 7 cfg2.N
      = dual (V c main_v47_0) (had (gate (V c main_v60) (V c main_v63)) (V c main_arg2)) (V c main_v61) (V c main_v62) :=
  (dat2 V c).arrAt_eq_of_cover 7 _ (fun t _ => flushed_7 V c t) cover_7

end Cert.KernelIdeal.Blocks2

end
-- ==== Proof.Blocks3.lean ====
/-
  Region 3 (`out = g · h + (1 − g) · tanh (agg + bch)`) as one whole-array function.

  The region walks the 50000 rows in ten blocks of 5000: at each block it loads the block of the aggregate, of the gate and
  of `h` and the whole bias row, and stores the blend. The blend is a row-wise stage (Rows.lean), the ten output blocks
  tile the result array, so the array ends holding the blend of the whole arrays.
-/
import proofs.«102963_j37297495998610_1_alg».proof.Proof.Gen.KernelIdeal.Frame
import proofs.«102963_j37297495998610_1_alg».proof.Proof.Pay
import Idealize.ShloMosaic.Lib.Pipeline.Value

set_option maxRecDepth 16384

noncomputable section

namespace Cert.KernelIdeal.Blocks3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Rows

variable (V : (c : Dev nD) → (b : Ref sig .tc) → Buf (Elt Ideal) ((c : Thread nD τ).loc b))

/-- A grid point as a block number. -/
def pt (t : Fin cfg3.N) : Fin 10 := ⟨t.val, lt_of_lt_of_eq t.isLt N_3⟩

/-- The printed index maps, decided over the grid: the row-blocked windows sit at block row `t`, the whole one at zero. -/
theorem idx_0 : ∀ t : Fin cfg3.N, win3_0.index t (0 : Fin 2) = t.val ∧ win3_0.index t (1 : Fin 2) = 0 :=
  (by decide +kernel : ∀ t : Fin grid3.N, _)
theorem idx_1 : ∀ t : Fin cfg3.N, win3_1.index t (0 : Fin 2) = 0 ∧ win3_1.index t (1 : Fin 2) = 0 :=
  (by decide +kernel : ∀ t : Fin grid3.N, _)
theorem idx_2 : ∀ t : Fin cfg3.N, win3_2.index t (0 : Fin 2) = t.val ∧ win3_2.index t (1 : Fin 2) = 0 :=
  (by decide +kernel : ∀ t : Fin grid3.N, _)
theorem idx_3 : ∀ t : Fin cfg3.N, win3_3.index t (0 : Fin 2) = t.val ∧ win3_3.index t (1 : Fin 2) = 0 :=
  (by decide +kernel : ∀ t : Fin grid3.N, _)
theorem idx_4 : ∀ t : Fin cfg3.N, win3_4.index t (0 : Fin 2) = t.val ∧ win3_4.index t (1 : Fin 2) = 0 :=
  (by decide +kernel : ∀ t : Fin grid3.N, _)

/-- Window 0's block at point `t` is block `t` of the aggregate's rows. -/
theorem blk_0 (c : Dev nD) (t : Fin cfg3.N) : iblk3 V c 0 t = rows (pt t) (V c main_v77) :=
  read_rows (V c main_v77) (pt t) ((cfg3.win 0).blk t).view.emb
    (fun j => by show win3_0.index t (0 : Fin 2) * 5000 + 1 * (j 0).val = t.val * 5000 + (j 0).val; rw [(idx_0 t).1]; omega)
    (fun j => by show win3_0.index t (1 : Fin 2) * 96 + 1 * (j 1).val = (j 1).val; rw [(idx_0 t).2]; omega)

/-- Window 1's block at every point is the whole bias row. -/
theorem blk_1 (c : Dev nD) (t : Fin cfg3.N) : iblk3 V c 1 t = V c main_v78 :=
  read_same (V c main_v78) ((cfg3.win 1).blk t).view.emb (fun j a => by
    match a with
    | ⟨0, _⟩ => show win3_1.index t (0 : Fin 2) * 1 + 1 * (j 0).val = (j 0).val; rw [(idx_1 t).1]; omega
    | ⟨1, _⟩ => show win3_1.index t (1 : Fin 2) * 96 + 1 * (j 1).val = (j 1).val; rw [(idx_1 t).2]; omega)

/-- Window 2's block at point `t` is block `t` of the gate's rows. -/
theorem blk_2 (c : Dev nD) (t : Fin cfg3.N) : iblk3 V c 2 t = rows (pt t) (V c main_v64_0) :=
  read_rows (V c main_v64_0) (pt t) ((cfg3.win 2).blk t).view.emb
    (fun j => by show win3_2.index t (0 : Fin 2) * 5000 + 1 * (j 0).val = t.val * 5000 + (j 0).val; rw [(idx_2 t).1]; omega)
    (fun j => by show win3_2.index t (1 : Fin 2) * 96 + 1 * (j 1).val = (j 1).val; rw [(idx_2 t).2]; omega)

/-- Window 3's block at point `t` is block `t` of `h`'s rows. -/
theorem blk_3 (c : Dev nD) (t : Fin cfg3.N) : iblk3 V c 3 t = rows (pt t) (V c main_arg2) :=
  read_rows (V c main_arg2) (pt t) ((cfg3.win 3).blk t).view.emb
    (fun j => by show win3_3.index t (0 : Fin 2) * 5000 + 1 * (j 0).val = t.val * 5000 + (j 0).val; rw [(idx_3 t).1]; omega)
    (fun j => by show win3_3.index t (1 : Fin 2) * 96 + 1 * (j 1).val = (j 1).val; rw [(idx_3 t).2]; omega)

/-- Block `t` of any contents of the result array, as the write-back at point `t` cuts it. -/
theorem out_4 (G : Mat 50000 96) (t : Fin cfg3.N) :
    (cfg3.win 4).cut (grid3.coords t) (rows (pt t) G) = ((cfg3.win 4).blk t).view.read (Elt Ideal) G :=
  (read_rows G (pt t) ((cfg3.win 4).blk t).view.emb
    (fun j => by show win3_4.index t (0 : Fin 2) * 5000 + 1 * (j 0).val = t.val * 5000 + (j 0).val; rw [(idx_4 t).1]; omega)
    (fun j => by show win3_4.index t (1 : Fin 2) * 96 + 1 * (j 1).val = (j 1).val; rw [(idx_4 t).2]; omega)).symm

/-- What point `t` writes back is block `t` of the blend. -/
theorem flushed_4 (c : Dev nD) (t : Fin cfg3.N) :
    (dat3 V c).flushed 4 t = ((cfg3.win 4).blk t).view.read (Elt Ideal)
      (blend (V c main_v77) (V c main_v78) (V c main_v64_0) (V c main_arg2)) := by
  show (cfg3.win 4).cut (grid3.coords t) ((dat3 V c).after 4 t) = _
  rw [after3_4]
  unfold out3_4
  rw [View.canon_unit_zero zero_offsets]
  simp only [View.ld_unit_zero (S := S5000x96) zero_offsets, View.ld_unit_zero (S := S1x96) zero_offsets]
  rw [blk_0, blk_1, blk_2, blk_3, Pay.pay3, rows_blend]
  exact out_4 _ t

/-- An index of the result array is in point `t`'s block iff each coordinate is in the block's range on its axis. -/
theorem mem_4 (t : Fin cfg3.N) (i : S50000x96.Idx) :
    i ∈ ((cfg3.win 4).blk t).view.set ↔ ∀ a : Fin 2, win3_4.index t a * S5000x96.size a ≤ (i a).val ∧ (i a).val < win3_4.index t a * S5000x96.size a + S5000x96.size a := by
  show i ∈ ((View.whole main_v79).slice (win3_4.rect t)).set ↔ _
  rw [View.set_slice_whole, Rect.mem_set_unit]
  exact Iff.rfl

/-- The ten blocks tile the result array: row `r` lies in block `r / 5000`. -/
theorem cover_4 (i : S50000x96.Idx) : ∃ t : Fin cfg3.N, (cfg3.win 4).flush t = true ∧ i ∈ ((cfg3.win 4).blk t).view.set := by
  have hi0 : (i 0).val < 50000 := (i 0).isLt
  have hi1 : (i 1).val < 96 := (i 1).isLt
  obtain ⟨hq, hlo, hhi⟩ := row_block (i 0).val hi0
  refine ⟨⟨(i 0).val / 5000, lt_of_lt_of_eq hq N_3.symm⟩, flush3_4 _, ?_⟩
  rw [mem_4]
  intro a
  match a with
  | ⟨0, _⟩ =>
    show win3_4.index ⟨(i 0).val / 5000, _⟩ (0 : Fin 2) * 5000 ≤ (i 0).val ∧ (i 0).val < win3_4.index ⟨(i 0).val / 5000, _⟩ (0 : Fin 2) * 5000 + 5000
    rw [(idx_4 _).1]; exact ⟨hlo, hhi⟩
  | ⟨1, _⟩ =>
    show win3_4.index ⟨(i 0).val / 5000, _⟩ (1 : Fin 2) * 96 ≤ (i 1).val ∧ (i 1).val < win3_4.index ⟨(i 0).val / 5000, _⟩ (1 : Fin 2) * 96 + 96
    rw [(idx_4 _).2]; omega

/-- After the region the result array holds the blend of the whole arrays, whatever the contents `V` at entry. -/
theorem closed_4 (c : Dev nD) :
    (dat3 V c).arrAt 4 cfg3.N = blend (V c main_v77) (V c main_v78) (V c main_v64_0) (V c main_arg2) :=
  (dat3 V c).arrAt_eq_of_cover 4 _ (fun t _ => flushed_4 V c t) cover_4

end Cert.KernelIdeal.Blocks3

end
-- ==== Proof.Spec.lean ====
/-
  The cell as one function of the arguments.

  Both programs compute a graph GRU cell: three times a dense stage on the node features followed by the SAME graph
  aggregation (gather the rows at the edge sources, scale each by the edge's normalisation, sum into the edge
  destinations). The aggregation is named here once (`agg`), as the operations both programs print, and is never
  opened: the two programs are compared on what they feed it. The edge lists and the normalisation are the reference's
  own stages of the edge input. `outSpec` is then the whole cell, the dense stages being the row-wise ones of Rows.lean.
-/
import proofs.«102963_j37297495998610_1_alg».proof.Proof.RefRead
import proofs.«102963_j37297495998610_1_alg».proof.Proof.Rows

noncomputable section

namespace Cert.Spec

open Cert.ReferenceIdeal Cert.ReferenceIdeal.Gen Cert.ReferenceIdeal.ReadP
open Idealize.ShloMosaic Idealize.ShloMosaic.TcCoe Idealize.ShloMosaic.StableHlo Cert.Rows

variable {F : FTy → Type} [FloatOps F]

/-- The graph aggregation of node features `h` over edges `src → dst` with per-edge weights `nrm`: the rows of `h` at the
    sources (a negative index wrapped once by the node count), each scaled by its edge's weight, summed into the rows at the
    destinations of an all-zero array. -/
def agg (src dst : (⟨S850000, .i32⟩ : BufTy).Contents (Elt F)) (nrm : (⟨S850000, .f32⟩ : BufTy).Contents (Elt F))
    (h : (⟨S50000x96, .f32⟩ : BufTy).Contents (Elt F)) : (⟨S50000x96, .f32⟩ : BufTy).Contents (Elt F) :=
  Host.scatterAdd scatter_S50000x96_S850000x1_S850000x96_1_0_0_1
    (broadcastInDim S50000x96 ![] bcast_S_S50000x96 (constant (F := F) S_ .f32 0x00000000#32))
    (broadcastInDim S850000x1 ![0] bcast_S850000_S850000x1_0 dst)
    (mulf
      (Host.gather gather_S50000x96_S850000x1_S850000x96_1_0_n_n_0_1_196 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x96 ![0, 1] bcast_S850000x1_S850000x96_0_1
        (broadcastInDim S850000x1 ![0] bcast_S850000_S850000x1_0 nrm)))

/-- The aggregation over the graph the edge input `x1` gives (with its self-loops and its symmetric normalisation). -/
def aggOf (x1 : (⟨S2x800000, .i32⟩ : BufTy).Contents (Elt F)) (h : (⟨S50000x96, .f32⟩ : BufTy).Contents (Elt F)) :
    (⟨S50000x96, .f32⟩ : BufTy).Contents (Elt F) :=
  agg (val_main_v3 (F := F) x1) (val_main_v6 (F := F) x1) (val_main_v29 (F := F) x1) h

/-- The convolved input features: `agg (x · Wx) + bx`. -/
def xgS (x0 : Mat 50000 96) (x1 : (⟨S2x800000, .i32⟩ : BufTy).Contents (Elt Ideal)) (x3 : Mat 96 96)
    (x4 : (⟨1, ![96]⟩ : Shape).Idx → EReal) : Mat 50000 96 :=
  addRow (aggOf (F := Ideal) x1 (mm x0 x3)) (biasRow x4)

/-- The gate: the logistic of `agg ([x_gcn, h] · Wuh) + buh`. -/
def gS (x0 : Mat 50000 96) (x1 : (⟨S2x800000, .i32⟩ : BufTy).Contents (Elt Ideal)) (x2 : Mat 50000 96) (x3 : Mat 96 96)
    (x4 : (⟨1, ![96]⟩ : Shape).Idx → EReal) (x5 : Mat 192 96) (x6 : (⟨1, ![96]⟩ : Shape).Idx → EReal) : Mat 50000 96 :=
  gate (aggOf (F := Ideal) x1 (dual (xgS x0 x1 x3 x4) x2 (topHalf x5) (botHalf x5))) (biasRow x6)

/-- The cell's output: `g · h + (1 − g) · tanh (agg ([x_gcn, g · h] · Wch) + bch)`. -/
def outSpec (x0 : Mat 50000 96) (x1 : (⟨S2x800000, .i32⟩ : BufTy).Contents (Elt Ideal)) (x2 : Mat 50000 96) (x3 : Mat 96 96)
    (x4 : (⟨1, ![96]⟩ : Shape).Idx → EReal) (x5 : Mat 192 96) (x6 : (⟨1, ![96]⟩ : Shape).Idx → EReal) (x7 : Mat 192 96)
    (x8 : (⟨1, ![96]⟩ : Shape).Idx → EReal) : Mat 50000 96 :=
  blend
    (aggOf (F := Ideal) x1
      (dual (xgS x0 x1 x3 x4) (had (gS x0 x1 x2 x3 x4 x5 x6) x2) (topHalf x7) (botHalf x7)))
    (biasRow x8) (gS x0 x1 x2 x3 x4 x5 x6) x2

end Cert.Spec

end
-- ==== Proof.HostK.lean ====
/-
  The host operations between the kernel's regions, one stretch at a time.

  Each stretch of host operations is read as a function of the buffer contents it starts from (`W`, arbitrary): the
  three stretches before the first region compute the edge lists (with self-loops) and the per-edge normalisation from the
  edge input alone, exactly the reference's own stages of it; each later stretch aggregates the preceding region's last
  output over the graph (`Spec.agg`: the same operations in both programs), cuts the next weight matrix in its two halves
  and reshapes the next bias to one row; a buffer a stretch does not write keeps its contents.
-/
import proofs.«102963_j37297495998610_1_alg».proof.Proof.Gen.KernelIdeal.Frame
import proofs.«102963_j37297495998610_1_alg».proof.Proof.Spec

set_option maxRecDepth 16384

noncomputable section

namespace Cert.KernelIdeal.HostK

open Idealize.ShloMosaic Idealize.ShloMosaic.TcCoe Idealize.ShloMosaic.StableHlo
open Idealize.SL Idealize.SL.Sem
open Cert.KernelIdeal Cert.KernelIdeal.Gen

variable {F : FTy → Type} [FloatOps F]

/-! ## What each stretch leaves alone -/

/-- Every operation of a literal stretch writes a reference of the stated list. -/
macro "writes_in_list" : tactic =>
  `(tactic| (simp only [List.Forall]
             repeat' apply And.intro
             all_goals (simp only [StableHlo.nullary_writes, StableHlo.unary_writes, StableHlo.binary_writes, StableHlo.ternary_writes,
                          StableHlo.quaternary_writes, StableHlo.reshape_writes, StableHlo.binaryIndexed_writes, StableHlo.unaryIndexed_writes,
                          StableHlo.nary_writes, Finset.singleton_subset_iff, List.mem_toFinset]
                        exact List.mem_map_of_mem (by decide))))

/-- The references the first stretch writes. -/
abbrev written0 : List (Ref sig .tc) :=
  [main_v0, main_v1, main_v2, main_v3, main_v4, main_v5, main_v6, main_cst, main_v7, main_cst_0, main_v8, main_v9, main_v10,
   main_cst_1, main_v11, main_v12, main_v13, main_cst_2]
theorem writes0 : (hostOps0 : List (HloOp τ sig (Elt F))).Forall fun op => op.writes ⊆ (written0.map (Proc.devRef (τ := τ) .tc)).toFinset := by
  writes_in_list
theorem keep0 (W : Valuation τ sig (Elt F)) (r : Ref sig .tc) (h : r ∉ written0) :
    StableHlo.after hostOps0 W (Proc.devRef .tc r) = W (Proc.devRef .tc r) :=
  StableHlo.after_of_writes_sub hostOps0 W writes0 h

/-- The references the inlined selection writes. -/
abbrev written0_1 : List (Ref sig .tc) := [main_call0_v0, main_call0_v1, main_v14]
theorem writes0_1 : (hostOps0_1 : List (HloOp τ sig (Elt F))).Forall fun op => op.writes ⊆ (written0_1.map (Proc.devRef (τ := τ) .tc)).toFinset := by
  writes_in_list
theorem keep0_1 (W : Valuation τ sig (Elt F)) (r : Ref sig .tc) (h : r ∉ written0_1) :
    StableHlo.after hostOps0_1 W (Proc.devRef .tc r) = W (Proc.devRef .tc r) :=
  StableHlo.after_of_writes_sub hostOps0_1 W writes0_1 h

/-- The references the third stretch writes. -/
abbrev written0_2 : List (Ref sig .tc) :=
  [main_c, main_v15, main_v16, main_c_3, main_v17, main_v18, main_v19, main_v20, main_v21, main_c_4, main_v22, main_v23, main_c_5,
   main_v24, main_v25, main_v26, main_v27, main_v28, main_v29]
theorem writes0_2 : (hostOps0_2 : List (HloOp τ sig (Elt F))).Forall fun op => op.writes ⊆ (written0_2.map (Proc.devRef (τ := τ) .tc)).toFinset := by
  writes_in_list
theorem keep0_2 (W : Valuation τ sig (Elt F)) (r : Ref sig .tc) (h : r ∉ written0_2) :
    StableHlo.after hostOps0_2 W (Proc.devRef .tc r) = W (Proc.devRef .tc r) :=
  StableHlo.after_of_writes_sub hostOps0_2 W writes0_2 h

/-- The references the stretch between regions 0 and 1 writes. -/
abbrev written1 : List (Ref sig .tc) :=
  [main_c_6, main_v31, main_v32, main_c_7, main_v33, main_v34, main_v35, main_v36, main_v37, main_v38, main_v39, main_v40, main_cst_8,
   main_v41, main_v42, main_v43, main_v44, main_v45, main_v46]
theorem writes1 : (hostOps1 : List (HloOp τ sig (Elt F))).Forall fun op => op.writes ⊆ (written1.map (Proc.devRef (τ := τ) .tc)).toFinset := by
  writes_in_list
theorem keep1 (W : Valuation τ sig (Elt F)) (r : Ref sig .tc) (h : r ∉ written1) :
    StableHlo.after hostOps1 W (Proc.devRef .tc r) = W (Proc.devRef .tc r) :=
  StableHlo.after_of_writes_sub hostOps1 W writes1 h

/-- The references the stretch between regions 1 and 2 writes. -/
abbrev written2 : List (Ref sig .tc) :=
  [main_c_9, main_v48, main_v49, main_c_10, main_v50, main_v51, main_v52, main_v53, main_v54, main_v55, main_v56, main_v57, main_cst_11,
   main_v58, main_v59, main_v60, main_v61, main_v62, main_v63]
theorem writes2 : (hostOps2 : List (HloOp τ sig (Elt F))).Forall fun op => op.writes ⊆ (written2.map (Proc.devRef (τ := τ) .tc)).toFinset := by
  writes_in_list
theorem keep2 (W : Valuation τ sig (Elt F)) (r : Ref sig .tc) (h : r ∉ written2) :
    StableHlo.after hostOps2 W (Proc.devRef .tc r) = W (Proc.devRef .tc r) :=
  StableHlo.after_of_writes_sub hostOps2 W writes2 h

/-- The references the stretch between regions 2 and 3 writes. -/
abbrev written3 : List (Ref sig .tc) :=
  [main_c_12, main_v65, main_v66, main_c_13, main_v67, main_v68, main_v69, main_v70, main_v71, main_v72, main_v73, main_v74, main_cst_14,
   main_v75, main_v76, main_v77, main_v78]
theorem writes3 : (hostOps3 : List (HloOp τ sig (Elt F))).Forall fun op => op.writes ⊆ (written3.map (Proc.devRef (τ := τ) .tc)).toFinset := by
  writes_in_list
theorem keep3 (W : Valuation τ sig (Elt F)) (r : Ref sig .tc) (h : r ∉ written3) :
    StableHlo.after hostOps3 W (Proc.devRef .tc r) = W (Proc.devRef .tc r) :=
  StableHlo.after_of_writes_sub hostOps3 W writes3 h

/-! ## The graph, from the edge input (the three stretches before the first region) -/

/-- The sources with their self-loops. -/
theorem src_eq (W : Valuation τ sig (Elt F)) :
    StableHlo.after hostOps0 W (Proc.devRef .tc main_v3) = Cert.ReferenceIdeal.ReadP.val_main_v3 (F := F) (W (Proc.devRef .tc main_arg1)) := by
  simp only [hostOps0]
  after_results_simp
  rfl
/-- The destinations with their self-loops. -/
theorem dst_eq (W : Valuation τ sig (Elt F)) :
    StableHlo.after hostOps0 W (Proc.devRef .tc main_v6) = Cert.ReferenceIdeal.ReadP.val_main_v6 (F := F) (W (Proc.devRef .tc main_arg1)) := by
  simp only [hostOps0]
  after_results_simp
  rfl
/-- Whether a node's degree is positive. -/
theorem pos_eq (W : Valuation τ sig (Elt F)) :
    StableHlo.after hostOps0 W (Proc.devRef .tc main_v12) = Cert.ReferenceIdeal.ReadP.val_main_v12 (F := F) (W (Proc.devRef .tc main_arg1)) := by
  simp only [hostOps0]
  after_results_simp
  rfl
/-- The reciprocal square root of a node's degree. -/
theorem rsqrt_eq (W : Valuation τ sig (Elt F)) :
    StableHlo.after hostOps0 W (Proc.devRef .tc main_v13) = Cert.ReferenceIdeal.ReadP.val_main_v13 (F := F) (W (Proc.devRef .tc main_arg1)) := by
  simp only [hostOps0]
  after_results_simp
  rfl
/-- The zero the selection falls back to. -/
theorem zero_eq (W : Valuation τ sig (Elt F)) :
    StableHlo.after hostOps0 W (Proc.devRef .tc main_cst_2) = Cert.ReferenceIdeal.ReadP.val_main_cst_2 (F := F) := by
  simp only [hostOps0]
  after_results_simp
  rfl

/-- The reciprocal square root where the degree is positive, zero elsewhere (the inlined selection). -/
theorem dinv_eq (W : Valuation τ sig (Elt F)) (x1 : (⟨Cert.ReferenceIdeal.S2x800000, .i32⟩ : BufTy).Contents (Elt F))
    (h12 : W (Proc.devRef .tc main_v12) = Cert.ReferenceIdeal.ReadP.val_main_v12 (F := F) x1)
    (h13 : W (Proc.devRef .tc main_v13) = Cert.ReferenceIdeal.ReadP.val_main_v13 (F := F) x1)
    (hz : W (Proc.devRef .tc main_cst_2) = Cert.ReferenceIdeal.ReadP.val_main_cst_2 (F := F)) :
    StableHlo.after hostOps0_1 W (Proc.devRef .tc main_v14) = Cert.ReferenceIdeal.ReadP.val_main_v14 (F := F) x1 := by
  simp only [hostOps0_1]
  after_results_simp
  try simp only [TRef.ofBuf, TRef.toBuf, cast_eq]
  rw [h12, h13, hz]
  rfl

/-- The per-edge normalisation: the product of the two ends' reciprocal square roots. -/
theorem nrm_eq (W : Valuation τ sig (Elt F)) (x1 : (⟨Cert.ReferenceIdeal.S2x800000, .i32⟩ : BufTy).Contents (Elt F))
    (h3 : W (Proc.devRef .tc main_v3) = Cert.ReferenceIdeal.ReadP.val_main_v3 (F := F) x1)
    (h6 : W (Proc.devRef .tc main_v6) = Cert.ReferenceIdeal.ReadP.val_main_v6 (F := F) x1)
    (h14 : W (Proc.devRef .tc main_v14) = Cert.ReferenceIdeal.ReadP.val_main_v14 (F := F) x1) :
    StableHlo.after hostOps0_2 W (Proc.devRef .tc main_v29) = Cert.ReferenceIdeal.ReadP.val_main_v29 (F := F) x1 := by
  simp only [hostOps0_2]
  after_results_simp
  rw [h3, h6, h14]
  rfl

/-! ## The stretches between the regions -/

/-- The stretch after region 0 aggregates its output over the graph. -/
theorem agg1 (W : Valuation τ sig (Elt F)) :
    StableHlo.after hostOps1 W (Proc.devRef .tc main_v43)
      = Cert.Spec.agg (F := F) (W (Proc.devRef .tc main_v3)) (W (Proc.devRef .tc main_v6)) (W (Proc.devRef .tc main_v29))
          (W (Proc.devRef .tc main_v30)) := by
  simp only [hostOps1]
  after_results_simp
  rfl
/-- … cuts `Wuh` in its two halves … -/
theorem top1 (W : Valuation τ sig (Elt F)) :
    StableHlo.after hostOps1 W (Proc.devRef .tc main_v44)
      = extractStridedSlice S96x96 ![0, 0] (W (Proc.devRef .tc main_arg5)) slices_S192x96_S96x96_0_0 := by
  simp only [hostOps1]
  after_results_simp
theorem bot1 (W : Valuation τ sig (Elt F)) :
    StableHlo.after hostOps1 W (Proc.devRef .tc main_v45)
      = extractStridedSlice S96x96 ![96, 0] (W (Proc.devRef .tc main_arg5)) slices_S192x96_S96x96_96_0 := by
  simp only [hostOps1]
  after_results_simp
/-- … and reshapes `bx` to one row. -/
theorem row1 (W : Valuation τ sig (Elt F)) :
    StableHlo.after hostOps1 W (Proc.devRef .tc main_v46) = shapeCast S1x96 (W (Proc.devRef .tc main_arg4)) shapeCasts_S96_S1x96 := by
  simp only [hostOps1]
  after_results_simp
  rfl

/-- The stretch after region 1 aggregates its second output over the graph, cuts `Wch` and reshapes `buh`. -/
theorem agg2 (W : Valuation τ sig (Elt F)) :
    StableHlo.after hostOps2 W (Proc.devRef .tc main_v60)
      = Cert.Spec.agg (F := F) (W (Proc.devRef .tc main_v3)) (W (Proc.devRef .tc main_v6)) (W (Proc.devRef .tc main_v29))
          (W (Proc.devRef .tc main_v47_1)) := by
  simp only [hostOps2]
  after_results_simp
  rfl
theorem top2 (W : Valuation τ sig (Elt F)) :
    StableHlo.after hostOps2 W (Proc.devRef .tc main_v61)
      = extractStridedSlice S96x96 ![0, 0] (W (Proc.devRef .tc main_arg7)) slices_S192x96_S96x96_0_0 := by
  simp only [hostOps2]
  after_results_simp
theorem bot2 (W : Valuation τ sig (Elt F)) :
    StableHlo.after hostOps2 W (Proc.devRef .tc main_v62)
      = extractStridedSlice S96x96 ![96, 0] (W (Proc.devRef .tc main_arg7)) slices_S192x96_S96x96_96_0 := by
  simp only [hostOps2]
  after_results_simp
theorem row2 (W : Valuation τ sig (Elt F)) :
    StableHlo.after hostOps2 W (Proc.devRef .tc main_v63) = shapeCast S1x96 (W (Proc.devRef .tc main_arg6)) shapeCasts_S96_S1x96 := by
  simp only [hostOps2]
  after_results_simp
  rfl

/-- The stretch after region 2 aggregates its second output over the graph and reshapes `bch`. -/
theorem agg3 (W : Valuation τ sig (Elt F)) :
    StableHlo.after hostOps3 W (Proc.devRef .tc main_v77)
      = Cert.Spec.agg (F := F) (W (Proc.devRef .tc main_v3)) (W (Proc.devRef .tc main_v6)) (W (Proc.devRef .tc main_v29))
          (W (Proc.devRef .tc main_v64_1)) := by
  simp only [hostOps3]
  after_results_simp
  rfl
theorem row3 (W : Valuation τ sig (Elt F)) :
    StableHlo.after hostOps3 W (Proc.devRef .tc main_v78) = shapeCast S1x96 (W (Proc.devRef .tc main_arg8)) shapeCasts_S96_S1x96 := by
  simp only [hostOps3]
  after_results_simp
  rfl

end Cert.KernelIdeal.HostK

end
-- ==== Proof.Layout.lean ====
/-
  A weight matrix's two halves and a bias's one row, as the operations that make them.

  The kernel's program cuts each `[192, 96]` weight matrix in two by row slices and reshapes each `[96]` bias to `[1, 96]`
  before the region that uses them: the slices are the two halves of Rows.lean, the reshape the one row.
-/
import proofs.«102963_j37297495998610_1_alg».proof.Proof.Rows
import Idealize.ShloMosaic.Lib.ValueLayout
import Idealize.ShloMosaic.Lib.Pipeline.Value

noncomputable section

namespace Cert.Rows

open Idealize.ShloMosaic Idealize.ShloMosaic.ValueIdx

/-- Rows 0 … 95 cut out of a `[192, 96]` matrix. -/
theorem slice_top (W : Mat 192 96) (h : (⟨2, ![192, 96]⟩ : Shape).Slices ![0, 0] ⟨2, ![96, 96]⟩) :
    extractStridedSlice ⟨2, ![96, 96]⟩ ![0, 0] W h = topHalf W := by
  funext i
  obtain ⟨r, c, rfl⟩ : ∃ (r : Fin 96) (c : Fin 96), i = ix2 r c := ⟨i 0, i 1, eq_ix2 i⟩
  exact slice2_axis0_apply 0 W h r c ⟨r.val, by have := r.isLt; omega⟩ (Nat.zero_add _).symm

/-- Rows 96 … 191 cut out of a `[192, 96]` matrix. -/
theorem slice_bot (W : Mat 192 96) (h : (⟨2, ![192, 96]⟩ : Shape).Slices ![96, 0] ⟨2, ![96, 96]⟩) :
    extractStridedSlice ⟨2, ![96, 96]⟩ ![96, 0] W h = botHalf W := by
  funext i
  obtain ⟨r, c, rfl⟩ : ∃ (r : Fin 96) (c : Fin 96), i = ix2 r c := ⟨i 0, i 1, eq_ix2 i⟩
  exact slice2_axis0_apply 96 W h r c ⟨96 + r.val, by have := r.isLt; omega⟩ rfl

/-- A `[96]` array reshaped to `[1, 96]` is its one row. -/
theorem cast_row (x : (⟨1, ![96]⟩ : Shape).Idx → EReal) (h : (⟨1, ![96]⟩ : Shape).ShapeCasts ⟨2, ![1, 96]⟩) :
    shapeCast ⟨2, ![1, 96]⟩ x h = biasRow x := by
  funext i
  obtain ⟨u, c, rfl⟩ : ∃ (u : Fin 1) (c : Fin 96), i = ix2 u c := ⟨i 0, i 1, eq_ix2 i⟩
  exact shapeCast_a_1a_apply x h u c

end Cert.Rows

end
-- ==== Proof.KValue.lean ====
/-
  The kernel's result array is the cell of the arguments.

  The buffer contents at each boundary of @main, carried from the launch to the result: the three stretches before the
  first region leave the edge lists and the normalisation (the reference's own stages of the edge input) and touch no
  argument; a region leaves in each of its output arrays the row-wise stage of its input arrays (the closed forms of the
  four block modules) and every other buffer as it was; a stretch between regions aggregates the last output over the graph,
  cuts the next weight matrix in two and reshapes the next bias. Composed, the last region's output is `Spec.outSpec` of the
  arguments as launched.
-/
import proofs.«102963_j37297495998610_1_alg».proof.Proof.Blocks0
import proofs.«102963_j37297495998610_1_alg».proof.Proof.Blocks1
import proofs.«102963_j37297495998610_1_alg».proof.Proof.Blocks2
import proofs.«102963_j37297495998610_1_alg».proof.Proof.Blocks3
import proofs.«102963_j37297495998610_1_alg».proof.Proof.HostK
import proofs.«102963_j37297495998610_1_alg».proof.Proof.Layout

set_option maxRecDepth 16384

noncomputable section

namespace Cert.KernelIdeal.KValue

open Idealize.ShloMosaic Idealize.ShloMosaic.TcCoe Idealize.ShloMosaic.StableHlo
open Idealize.SL Idealize.SL.Sem
open Cert.KernelIdeal Cert.KernelIdeal.Gen Cert.Rows Cert.Spec
open Cert.ReferenceIdeal.ReadP (val_main_v3 val_main_v6 val_main_v12 val_main_v13 val_main_cst_2 val_main_v14 val_main_v29)

variable (m : (ℓ : Loc nD τ sig) → Buf (Elt Ideal) ℓ) (ρ : Dev nD → PrngReg) (c : Dev nD)

/-- The arguments as launched. -/
abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)
abbrev X8 := m ((c : Thread nD τ).loc main_arg8)

/-! ## Before the first region: the graph, and the arguments untouched -/

theorem w1_pos : W1 m ρ c (Proc.devRef .tc main_v12) = val_main_v12 (F := Ideal) (X1 m c) := HostK.pos_eq (W0 m ρ c)
theorem w1_rsqrt : W1 m ρ c (Proc.devRef .tc main_v13) = val_main_v13 (F := Ideal) (X1 m c) := HostK.rsqrt_eq (W0 m ρ c)
theorem w1_zero : W1 m ρ c (Proc.devRef .tc main_cst_2) = val_main_cst_2 (F := Ideal) := HostK.zero_eq (W0 m ρ c)
theorem w1_src : W1 m ρ c (Proc.devRef .tc main_v3) = val_main_v3 (F := Ideal) (X1 m c) := HostK.src_eq (W0 m ρ c)
theorem w1_dst : W1 m ρ c (Proc.devRef .tc main_v6) = val_main_v6 (F := Ideal) (X1 m c) := HostK.dst_eq (W0 m ρ c)

theorem w2_src : W2 m ρ c (Proc.devRef .tc main_v3) = val_main_v3 (F := Ideal) (X1 m c) :=
  (HostK.keep0_1 (W1 m ρ c) main_v3 (by decide)).trans (w1_src m ρ c)
theorem w2_dst : W2 m ρ c (Proc.devRef .tc main_v6) = val_main_v6 (F := Ideal) (X1 m c) :=
  (HostK.keep0_1 (W1 m ρ c) main_v6 (by decide)).trans (w1_dst m ρ c)
theorem w2_dinv : W2 m ρ c (Proc.devRef .tc main_v14) = val_main_v14 (F := Ideal) (X1 m c) :=
  HostK.dinv_eq (W1 m ρ c) (X1 m c) (w1_pos m ρ c) (w1_rsqrt m ρ c) (w1_zero m ρ c)

theorem w3_src : W3 m ρ c (Proc.devRef .tc main_v3) = val_main_v3 (F := Ideal) (X1 m c) :=
  (HostK.keep0_2 (W2 m ρ c) main_v3 (by decide)).trans (w2_src m ρ c)
theorem w3_dst : W3 m ρ c (Proc.devRef .tc main_v6) = val_main_v6 (F := Ideal) (X1 m c) :=
  (HostK.keep0_2 (W2 m ρ c) main_v6 (by decide)).trans (w2_dst m ρ c)
theorem w3_nrm : W3 m ρ c (Proc.devRef .tc main_v29) = val_main_v29 (F := Ideal) (X1 m c) :=
  HostK.nrm_eq (W2 m ρ c) (X1 m c) (w2_src m ρ c) (w2_dst m ρ c) (w2_dinv m ρ c)

/-- A buffer none of the three first stretches writes is as launched at the first region's entry. -/
theorem w3_keep (r : Ref sig .tc) (h0 : r ∉ HostK.written0) (h1 : r ∉ HostK.written0_1) (h2 : r ∉ HostK.written0_2) :
    W3 m ρ c (Proc.devRef .tc r) = m ((c : Thread nD τ).loc r) :=
  (HostK.keep0_2 (W2 m ρ c) r h2).trans ((HostK.keep0_1 (W1 m ρ c) r h1).trans (HostK.keep0 (W0 m ρ c) r h0))

/-! ## Region 0 and the stretch after it -/

theorem w4_hx : W4 m ρ c (Proc.devRef .tc main_v30) = mm (R := 50000) (X0 m c) (X3 m c) :=
  (W4_arr m ρ c 2).trans ((Blocks0.closed_2 (V3 m ρ) c).trans
    (congrArg₂ (mm (R := 50000)) (w3_keep m ρ c main_arg0 (by decide) (by decide) (by decide))
      (w3_keep m ρ c main_arg3 (by decide) (by decide) (by decide))))

/-- A buffer that is no array of region 0 and that no first stretch writes is as launched after region 0. -/
theorem w4_keep (r : Ref sig .tc) (h : ∀ w, Pipeline.arrRef spec0 w ≠ r) (h0 : r ∉ HostK.written0) (h1 : r ∉ HostK.written0_1)
    (h2 : r ∉ HostK.written0_2) : W4 m ρ c (Proc.devRef .tc r) = m ((c : Thread nD τ).loc r) :=
  (W4_of_ne m ρ c r h).trans (w3_keep m ρ c r h0 h1 h2)
theorem w4_src : W4 m ρ c (Proc.devRef .tc main_v3) = val_main_v3 (F := Ideal) (X1 m c) :=
  (W4_of_ne m ρ c main_v3 (by decide)).trans (w3_src m ρ c)
theorem w4_dst : W4 m ρ c (Proc.devRef .tc main_v6) = val_main_v6 (F := Ideal) (X1 m c) :=
  (W4_of_ne m ρ c main_v6 (by decide)).trans (w3_dst m ρ c)
theorem w4_nrm : W4 m ρ c (Proc.devRef .tc main_v29) = val_main_v29 (F := Ideal) (X1 m c) :=
  (W4_of_ne m ρ c main_v29 (by decide)).trans (w3_nrm m ρ c)

theorem w5_agg : W5 m ρ c (Proc.devRef .tc main_v43) = aggOf (F := Ideal) (X1 m c) (mm (R := 50000) (X0 m c) (X3 m c)) :=
  (HostK.agg1 (W4 m ρ c)).trans (by rw [w4_src, w4_dst, w4_nrm, w4_hx]; rfl)
theorem w5_row : W5 m ρ c (Proc.devRef .tc main_v46) = biasRow (X4 m c) :=
  (HostK.row1 (W4 m ρ c)).trans (by
    rw [w4_keep m ρ c main_arg4 (by decide) (by decide) (by decide) (by decide)]; exact cast_row _ _)
theorem w5_top : W5 m ρ c (Proc.devRef .tc main_v44) = topHalf (X5 m c) :=
  (HostK.top1 (W4 m ρ c)).trans (by
    rw [w4_keep m ρ c main_arg5 (by decide) (by decide) (by decide) (by decide)]; exact slice_top _ _)
theorem w5_bot : W5 m ρ c (Proc.devRef .tc main_v45) = botHalf (X5 m c) :=
  (HostK.bot1 (W4 m ρ c)).trans (by
    rw [w4_keep m ρ c main_arg5 (by decide) (by decide) (by decide) (by decide)]; exact slice_bot _ _)
/-- A buffer the stretch after region 0 does not write, no array of region 0, unwritten before: as launched. -/
theorem w5_keep (r : Ref sig .tc) (h : ∀ w, Pipeline.arrRef spec0 w ≠ r) (h0 : r ∉ HostK.written0) (h1 : r ∉ HostK.written0_1)
    (h2 : r ∉ HostK.written0_2) (h3 : r ∉ HostK.written1) : W5 m ρ c (Proc.devRef .tc r) = m ((c : Thread nD τ).loc r) :=
  (HostK.keep1 (W4 m ρ c) r h3).trans (w4_keep m ρ c r h h0 h1 h2)
theorem w5_src : W5 m ρ c (Proc.devRef .tc main_v3) = val_main_v3 (F := Ideal) (X1 m c) :=
  (HostK.keep1 (W4 m ρ c) main_v3 (by decide)).trans (w4_src m ρ c)
theorem w5_dst : W5 m ρ c (Proc.devRef .tc main_v6) = val_main_v6 (F := Ideal) (X1 m c) :=
  (HostK.keep1 (W4 m ρ c) main_v6 (by decide)).trans (w4_dst m ρ c)
theorem w5_nrm : W5 m ρ c (Proc.devRef .tc main_v29) = val_main_v29 (F := Ideal) (X1 m c) :=
  (HostK.keep1 (W4 m ρ c) main_v29 (by decide)).trans (w4_nrm m ρ c)
theorem w5_h : W5 m ρ c (Proc.devRef .tc main_arg2) = X2 m c :=
  w5_keep m ρ c main_arg2 (by decide) (by decide) (by decide) (by decide) (by decide)

/-! ## Region 1 and the stretch after it -/

theorem w6_xg : W6 m ρ c (Proc.devRef .tc main_v47_0) = xgS (X0 m c) (X1 m c) (X3 m c) (X4 m c) :=
  (W6_arr m ρ c 5).trans ((Blocks1.closed_5 (V5 m ρ) c).trans
    (congrArg₂ (addRow (R := 50000)) (w5_agg m ρ c) (w5_row m ρ c)))
theorem w6_huh : W6 m ρ c (Proc.devRef .tc main_v47_1)
    = dual (R := 50000) (xgS (X0 m c) (X1 m c) (X3 m c) (X4 m c)) (X2 m c) (topHalf (X5 m c)) (botHalf (X5 m c)) :=
  (W6_arr m ρ c 6).trans ((Blocks1.closed_6 (V5 m ρ) c).trans (by
    show dual (R := 50000) (addRow (R := 50000) (W5 m ρ c (Proc.devRef .tc main_v43)) (W5 m ρ c (Proc.devRef .tc main_v46)))
      (W5 m ρ c (Proc.devRef .tc main_arg2)) (W5 m ρ c (Proc.devRef .tc main_v44)) (W5 m ρ c (Proc.devRef .tc main_v45)) = _
    rw [w5_agg, w5_row, w5_h, w5_top, w5_bot]; rfl))
/-- The second hidden-state input, an input array of region 1, is as launched after it. -/
theorem w6_h : W6 m ρ c (Proc.devRef .tc main_arg2) = X2 m c :=
  (W6_arr m ρ c 2).trans ((((dat1 (V5 m ρ) c).arrAt_in 2 rfl _).trans (A_eq1 (V5 m ρ) c 2)).trans (w5_h m ρ c))
theorem w6_src : W6 m ρ c (Proc.devRef .tc main_v3) = val_main_v3 (F := Ideal) (X1 m c) :=
  (W6_of_ne m ρ c main_v3 (by decide)).trans (w5_src m ρ c)
theorem w6_dst : W6 m ρ c (Proc.devRef .tc main_v6) = val_main_v6 (F := Ideal) (X1 m c) :=
  (W6_of_ne m ρ c main_v6 (by decide)).trans (w5_dst m ρ c)
theorem w6_nrm : W6 m ρ c (Proc.devRef .tc main_v29) = val_main_v29 (F := Ideal) (X1 m c) :=
  (W6_of_ne m ρ c main_v29 (by decide)).trans (w5_nrm m ρ c)
/-- An argument the later stretches read, no array of regions 0 and 1, is as launched after region 1. -/
theorem w6_keep (r : Ref sig .tc) (h : ∀ w, Pipeline.arrRef spec0 w ≠ r) (h' : ∀ w, Pipeline.arrRef spec1 w ≠ r)
    (h0 : r ∉ HostK.written0) (h1 : r ∉ HostK.written0_1) (h2 : r ∉ HostK.written0_2) (h3 : r ∉ HostK.written1) :
    W6 m ρ c (Proc.devRef .tc r) = m ((c : Thread nD τ).loc r) :=
  (W6_of_ne m ρ c r h').trans (w5_keep m ρ c r h h0 h1 h2 h3)

theorem w7_agg : W7 m ρ c (Proc.devRef .tc main_v60)
    = aggOf (F := Ideal) (X1 m c) (dual (R := 50000) (xgS (X0 m c) (X1 m c) (X3 m c) (X4 m c)) (X2 m c) (topHalf (X5 m c)) (botHalf (X5 m c))) :=
  (HostK.agg2 (W6 m ρ c)).trans (by rw [w6_src, w6_dst, w6_nrm, w6_huh]; rfl)
theorem w7_row : W7 m ρ c (Proc.devRef .tc main_v63) = biasRow (X6 m c) :=
  (HostK.row2 (W6 m ρ c)).trans (by
    rw [w6_keep m ρ c main_arg6 (by decide) (by decide) (by decide) (by decide) (by decide) (by decide)]; exact cast_row _ _)
theorem w7_top : W7 m ρ c (Proc.devRef .tc main_v61) = topHalf (X7 m c) :=
  (HostK.top2 (W6 m ρ c)).trans (by
    rw [w6_keep m ρ c main_arg7 (by decide) (by decide) (by decide) (by decide) (by decide) (by decide)]; exact slice_top _ _)
theorem w7_bot : W7 m ρ c (Proc.devRef .tc main_v62) = botHalf (X7 m c) :=
  (HostK.bot2 (W6 m ρ c)).trans (by
    rw [w6_keep m ρ c main_arg7 (by decide) (by decide) (by decide) (by decide) (by decide) (by decide)]; exact slice_bot _ _)
theorem w7_h : W7 m ρ c (Proc.devRef .tc main_arg2) = X2 m c :=
  (HostK.keep2 (W6 m ρ c) main_arg2 (by decide)).trans (w6_h m ρ c)
theorem w7_xg : W7 m ρ c (Proc.devRef .tc main_v47_0) = xgS (X0 m c) (X1 m c) (X3 m c) (X4 m c) :=
  (HostK.keep2 (W6 m ρ c) main_v47_0 (by decide)).trans (w6_xg m ρ c)
theorem w7_src : W7 m ρ c (Proc.devRef .tc main_v3) = val_main_v3 (F := Ideal) (X1 m c) :=
  (HostK.keep2 (W6 m ρ c) main_v3 (by decide)).trans (w6_src m ρ c)
theorem w7_dst : W7 m ρ c (Proc.devRef .tc main_v6) = val_main_v6 (F := Ideal) (X1 m c) :=
  (HostK.keep2 (W6 m ρ c) main_v6 (by decide)).trans (w6_dst m ρ c)
theorem w7_nrm : W7 m ρ c (Proc.devRef .tc main_v29) = val_main_v29 (F := Ideal) (X1 m c) :=
  (HostK.keep2 (W6 m ρ c) main_v29 (by decide)).trans (w6_nrm m ρ c)
theorem w7_b8 : W7 m ρ c (Proc.devRef .tc main_arg8) = X8 m c :=
  (HostK.keep2 (W6 m ρ c) main_arg8 (by decide)).trans
    (w6_keep m ρ c main_arg8 (by decide) (by decide) (by decide) (by decide) (by decide) (by decide))

/-! ## Region 2 and the stretch after it -/

theorem w8_g : W8 m ρ c (Proc.devRef .tc main_v64_0) = gS (X0 m c) (X1 m c) (X2 m c) (X3 m c) (X4 m c) (X5 m c) (X6 m c) :=
  (W8_arr m ρ c 6).trans ((Blocks2.closed_6 (V7 m ρ) c).trans
    (congrArg₂ (gate (R := 50000)) (w7_agg m ρ c) (w7_row m ρ c)))
theorem w8_hch : W8 m ρ c (Proc.devRef .tc main_v64_1)
    = dual (R := 50000) (xgS (X0 m c) (X1 m c) (X3 m c) (X4 m c))
        (had (gS (X0 m c) (X1 m c) (X2 m c) (X3 m c) (X4 m c) (X5 m c) (X6 m c)) (X2 m c)) (topHalf (X7 m c)) (botHalf (X7 m c)) :=
  (W8_arr m ρ c 7).trans ((Blocks2.closed_7 (V7 m ρ) c).trans (by
    show dual (R := 50000) (W7 m ρ c (Proc.devRef .tc main_v47_0))
      (had (gate (R := 50000) (W7 m ρ c (Proc.devRef .tc main_v60)) (W7 m ρ c (Proc.devRef .tc main_v63))) (W7 m ρ c (Proc.devRef .tc main_arg2)))
      (W7 m ρ c (Proc.devRef .tc main_v61)) (W7 m ρ c (Proc.devRef .tc main_v62)) = _
    rw [w7_xg, w7_agg, w7_row, w7_h, w7_top, w7_bot]; rfl))
theorem w8_h : W8 m ρ c (Proc.devRef .tc main_arg2) = X2 m c :=
  (W8_arr m ρ c 2).trans ((((dat2 (V7 m ρ) c).arrAt_in 2 rfl _).trans (A_eq2 (V7 m ρ) c 2)).trans (w7_h m ρ c))
theorem w8_src : W8 m ρ c (Proc.devRef .tc main_v3) = val_main_v3 (F := Ideal) (X1 m c) :=
  (W8_of_ne m ρ c main_v3 (by decide)).trans (w7_src m ρ c)
theorem w8_dst : W8 m ρ c (Proc.devRef .tc main_v6) = val_main_v6 (F := Ideal) (X1 m c) :=
  (W8_of_ne m ρ c main_v6 (by decide)).trans (w7_dst m ρ c)
theorem w8_nrm : W8 m ρ c (Proc.devRef .tc main_v29) = val_main_v29 (F := Ideal) (X1 m c) :=
  (W8_of_ne m ρ c main_v29 (by decide)).trans (w7_nrm m ρ c)
theorem w8_b8 : W8 m ρ c (Proc.devRef .tc main_arg8) = X8 m c :=
  (W8_of_ne m ρ c main_arg8 (by decide)).trans (w7_b8 m ρ c)

theorem w9_agg : W9 m ρ c (Proc.devRef .tc main_v77)
    = aggOf (F := Ideal) (X1 m c) (dual (R := 50000) (xgS (X0 m c) (X1 m c) (X3 m c) (X4 m c))
        (had (gS (X0 m c) (X1 m c) (X2 m c) (X3 m c) (X4 m c) (X5 m c) (X6 m c)) (X2 m c)) (topHalf (X7 m c)) (botHalf (X7 m c))) :=
  (HostK.agg3 (W8 m ρ c)).trans (by rw [w8_src, w8_dst, w8_nrm, w8_hch]; rfl)
theorem w9_row : W9 m ρ c (Proc.devRef .tc main_v78) = biasRow (X8 m c) :=
  (HostK.row3 (W8 m ρ c)).trans (by rw [w8_b8]; exact cast_row _ _)
theorem w9_g : W9 m ρ c (Proc.devRef .tc main_v64_0) = gS (X0 m c) (X1 m c) (X2 m c) (X3 m c) (X4 m c) (X5 m c) (X6 m c) :=
  (HostK.keep3 (W8 m ρ c) main_v64_0 (by decide)).trans (w8_g m ρ c)
theorem w9_h : W9 m ρ c (Proc.devRef .tc main_arg2) = X2 m c :=
  (HostK.keep3 (W8 m ρ c) main_arg2 (by decide)).trans (w8_h m ρ c)

/-! ## Region 3: the result -/

/-- After the last region the result array holds the cell of the arguments as launched. -/
theorem result : W10 m ρ c (Proc.devRef .tc main_v79)
    = outSpec (X0 m c) (X1 m c) (X2 m c) (X3 m c) (X4 m c) (X5 m c) (X6 m c) (X7 m c) (X8 m c) :=
  (W10_arr m ρ c 4).trans ((Blocks3.closed_4 (V9 m ρ) c).trans (by
    show blend (R := 50000) (W9 m ρ c (Proc.devRef .tc main_v77)) (W9 m ρ c (Proc.devRef .tc main_v78))
      (W9 m ρ c (Proc.devRef .tc main_v64_0)) (W9 m ρ c (Proc.devRef .tc main_arg2)) = _
    rw [w9_agg, w9_row, w9_g, w9_h]; rfl))

end Cert.KernelIdeal.KValue

end
-- ==== Proof.RefDefs.lean ====
/-
  The reference's stages, unfolded one step, for any float family.

  Each of the reference's three gather-scale-scatter chains is the aggregation `Spec.agg` of the stage before it, and each
  dense stage is its printed operation of the stages before it: all by unfolding the stage functions. Stated for an
  ARBITRARY float family, where the operations are opaque and unfolding stops at them.
-/
import proofs.«102963_j37297495998610_1_alg».proof.Proof.Spec

noncomputable section

namespace Cert.RefDefs

open Cert.ReferenceIdeal Cert.ReferenceIdeal.Gen Cert.ReferenceIdeal.ReadP
open Idealize.ShloMosaic Idealize.ShloMosaic.TcCoe Cert.Spec

variable {F : FTy → Type} [FloatOps F]
variable (x0 : (⟨S50000x96, .f32⟩ : BufTy).Contents (Elt F)) (x1 : (⟨S2x800000, .i32⟩ : BufTy).Contents (Elt F))
  (x2 : (⟨S50000x96, .f32⟩ : BufTy).Contents (Elt F)) (x3 : (⟨S96x96, .f32⟩ : BufTy).Contents (Elt F))
  (x4 : (⟨S96, .f32⟩ : BufTy).Contents (Elt F)) (x5 : (⟨S192x96, .f32⟩ : BufTy).Contents (Elt F))
  (x6 : (⟨S96, .f32⟩ : BufTy).Contents (Elt F)) (x7 : (⟨S192x96, .f32⟩ : BufTy).Contents (Elt F))
  (x8 : (⟨S96, .f32⟩ : BufTy).Contents (Elt F))

/-! ## The three aggregations -/

theorem v43_eq : val_main_v43 (F := F) x0 x1 x3 = aggOf (F := F) x1 (val_main_v30 (F := F) x0 x3) := rfl
theorem v61_eq : val_main_v61 (F := F) x0 x1 x2 x3 x4 x5 = aggOf (F := F) x1 (val_main_v48 (F := F) x0 x1 x2 x3 x4 x5) := rfl
theorem v86_eq : val_main_v86 (F := F) x0 x1 x2 x3 x4 x5 x6 x7
    = aggOf (F := F) x1 (val_main_v73 (F := F) x0 x1 x2 x3 x4 x5 x6 x7) := rfl

/-! ## The biased stages -/

/-- A `[96]` bias broadcast to `[1, 96]` and then over the 50000 rows. -/
def biasAll (v : (⟨S96, .f32⟩ : BufTy).Contents (Elt F)) : (⟨S50000x96, .f32⟩ : BufTy).Contents (Elt F) :=
  broadcastInDim S50000x96 ![0, 1] bcast_S1x96_S50000x96_0_1 (broadcastInDim S1x96 ![1] bcast_S96_S1x96_1 v)

theorem biasAll_eq (v : (⟨S96, .f32⟩ : BufTy).Contents (Elt F)) : biasAll v = val_main_v45 (F := F) v := rfl

theorem v46_def : val_main_v46 (F := F) x0 x1 x3 x4 = addf (val_main_v43 (F := F) x0 x1 x3) (biasAll x4) := rfl
theorem v64_def : val_main_v64 (F := F) x0 x1 x2 x3 x4 x5 x6 = addf (val_main_v61 (F := F) x0 x1 x2 x3 x4 x5) (biasAll x6) := rfl
theorem v89_def : val_main_v89 (F := F) x0 x1 x2 x3 x4 x5 x6 x7 x8
    = addf (val_main_v86 (F := F) x0 x1 x2 x3 x4 x5 x6 x7) (biasAll x8) := rfl

/-! ## The gate, the gated state and the result, entry by entry -/

theorem v70_apply (i : S50000x96.Idx) :
    val_main_v70 (F := F) x0 x1 x2 x3 x4 x5 x6 i
      = FloatOps.hostDivf (FloatOps.ofBits .f32 0x3F800000#32)
          (FloatOps.addf (FloatOps.ofBits .f32 0x3F800000#32)
            (FloatOps.hostUnary .exp (FloatOps.hostNegf (val_main_v64 (F := F) x0 x1 x2 x3 x4 x5 x6 i)))) := rfl

theorem v71_apply (i : S50000x96.Idx) :
    val_main_v71 (F := F) x0 x1 x2 x3 x4 x5 x6 i = FloatOps.mulf (val_main_v70 (F := F) x0 x1 x2 x3 x4 x5 x6 i) (x2 i) := rfl

theorem v95_apply (i : S50000x96.Idx) :
    val_main_v95 (F := F) x0 x1 x2 x3 x4 x5 x6 x7 x8 i
      = FloatOps.addf (FloatOps.mulf (val_main_v70 (F := F) x0 x1 x2 x3 x4 x5 x6 i) (x2 i))
          (FloatOps.mulf (FloatOps.subf (FloatOps.ofBits .f32 0x3F800000#32) (val_main_v70 (F := F) x0 x1 x2 x3 x4 x5 x6 i))
            (FloatOps.hostUnary .tanh (val_main_v89 (F := F) x0 x1 x2 x3 x4 x5 x6 x7 x8 i))) := rfl

/-! ## The two joins -/

theorem v47_def : val_main_v47 (F := F) x0 x1 x2 x3 x4
    = concatenate S50000x192 1 [⟨S50000x96, val_main_v46 (F := F) x0 x1 x3 x4⟩, ⟨S50000x96, x2⟩] concatenates_S50000x96_S50000x96_S50000x192_d1 := rfl
theorem v72_def : val_main_v72 (F := F) x0 x1 x2 x3 x4 x5 x6
    = concatenate S50000x192 1 [⟨S50000x96, val_main_v46 (F := F) x0 x1 x3 x4⟩, ⟨S50000x96, val_main_v71 (F := F) x0 x1 x2 x3 x4 x5 x6⟩]
        concatenates_S50000x96_S50000x96_S50000x192_d1 := rfl

end Cert.RefDefs

end
-- ==== Proof.RefBridge.lean ====
/-
  The reference's stages as the row-wise stages.

  The reference's run, read one operation at a time (the read module's stage functions), is the cell of Spec.lean: its
  first `dot_general` is the product `x · Wx`; each gather-scale-scatter chain is the aggregation of the stage before it
  (RefDefs.lean); a bias broadcast over the rows and added is `addRow`; a `dot_general` of two arrays set side by side with a
  `[192, 96]` matrix is the sum of two products with the halves of the matrix (the sum over the 192 columns split at 96);
  `1 / (1 + exp (−z))` is the logistic function of `z`; and the last line is `blend`.
-/
import proofs.«102963_j37297495998610_1_alg».proof.Proof.RefDefs
import proofs.«102963_j37297495998610_1_alg».proof.Proof.LibRowOps

noncomputable section

namespace Cert.RefBridge

open Cert.ReferenceIdeal Cert.ReferenceIdeal.Gen Cert.ReferenceIdeal.ReadP
open Idealize.ShloMosaic Idealize.ShloMosaic.TcCoe Idealize.ShloMosaic.ValueIdx Cert.Rows Cert.Spec Cert.RefDefs
open scoped BigOperators

variable (x0 : (⟨S50000x96, .f32⟩ : BufTy).Contents (Elt Ideal)) (x1 : (⟨S2x800000, .i32⟩ : BufTy).Contents (Elt Ideal))
  (x2 : (⟨S50000x96, .f32⟩ : BufTy).Contents (Elt Ideal)) (x3 : (⟨S96x96, .f32⟩ : BufTy).Contents (Elt Ideal))
  (x4 : (⟨S96, .f32⟩ : BufTy).Contents (Elt Ideal)) (x5 : (⟨S192x96, .f32⟩ : BufTy).Contents (Elt Ideal))
  (x6 : (⟨S96, .f32⟩ : BufTy).Contents (Elt Ideal)) (x7 : (⟨S192x96, .f32⟩ : BufTy).Contents (Elt Ideal))
  (x8 : (⟨S96, .f32⟩ : BufTy).Contents (Elt Ideal))

/-- The first `dot_general` is `x · Wx`. -/
theorem v30_eq : val_main_v30 (F := Ideal) x0 x3 = mm x0 x3 := by
  funext i
  obtain ⟨r, c, rfl⟩ : ∃ (r : Fin 50000) (c : Fin 96), i = ix2 r c := ⟨i 0, i 1, eq_ix2 i⟩
  rw [val_main_v30_apply]
  refine Finset.sum_congr rfl fun k _ => ?_
  have el : lidx_main_v30 (ix2 r c) k = ix2 r k := funext fun a => Fin.ext (by
    match a with
    | ⟨0, _⟩ => rfl
    | ⟨1, _⟩ => rfl)
  have er : ridx_main_v30 (ix2 r c) k = ix2 k c := funext fun a => Fin.ext (by
    match a with
    | ⟨0, _⟩ => rfl
    | ⟨1, _⟩ => rfl)
  rw [el, er]

/-- A `[96]` bias broadcast to `[1, 96]` and then over the 50000 rows reads, at `(r, c)`, the bias at `c`. -/
theorem bias_apply (v : (⟨S96, .f32⟩ : BufTy).Contents (Elt Ideal)) (r : Fin 50000) (c : Fin 96) :
    biasAll (F := Ideal) v (ix2 r c) = biasRow v (ix2 (0 : Fin 1) c) := by
  rw [biasAll_eq, val_main_v45_apply, val_main_v44_apply]
  refine congrArg v (funext fun a => Fin.ext ?_)
  match a with
  | ⟨0, _⟩ => rfl

/-- A bias broadcast over the rows and added is `addRow`. -/
theorem addBias_eq (a : (⟨S50000x96, .f32⟩ : BufTy).Contents (Elt Ideal)) (v : (⟨S96, .f32⟩ : BufTy).Contents (Elt Ideal)) :
    addf (F := Ideal) (φ := .f32) a (biasAll (F := Ideal) v) = addRow a (biasRow v) := by
  funext i
  obtain ⟨r, c, rfl⟩ : ∃ (r : Fin 50000) (c : Fin 96), i = ix2 r c := ⟨i 0, i 1, eq_ix2 i⟩
  rw [addf_apply, bias_apply]
  rfl

/-- The convolved input features. -/
theorem v46_eq : val_main_v46 (F := Ideal) x0 x1 x3 x4 = xgS x0 x1 x3 x4 := by
  rw [v46_def, addBias_eq, v43_eq, v30_eq]
  rfl

/-- Two arrays side by side, at column `k`. -/
theorem side_apply (p q : (⟨S50000x96, .f32⟩ : BufTy).Contents (Elt Ideal)) (r : Fin 50000) (k : Fin 192) :
    concatenate S50000x192 1 [⟨S50000x96, p⟩, ⟨S50000x96, q⟩] concatenates_S50000x96_S50000x96_S50000x192_d1 (ix2 r k) = side p q r k :=
  Cert.RowOps.concatenate_cols_apply p q concatenates_S50000x96_S50000x96_S50000x192_d1 rfl r k

/-- The second `dot_general`: `[x_gcn, h] · Wuh = x_gcn · Wuh[:96] + h · Wuh[96:]`. -/
theorem v48_eq : val_main_v48 (F := Ideal) x0 x1 x2 x3 x4 x5
    = dual (val_main_v46 (F := Ideal) x0 x1 x3 x4) x2 (topHalf x5) (botHalf x5) := by
  funext i
  obtain ⟨r, c, rfl⟩ : ∃ (r : Fin 50000) (c : Fin 96), i = ix2 r c := ⟨i 0, i 1, eq_ix2 i⟩
  rw [val_main_v48_apply]
  refine (Finset.sum_congr rfl fun k _ => ?_).trans (dual_eq_sum192 _ _ x5 r c)
  have el : lidx_main_v48 (ix2 r c) k = ix2 r k := funext fun a => Fin.ext (by
    match a with
    | ⟨0, _⟩ => rfl
    | ⟨1, _⟩ => rfl)
  have er : ridx_main_v48 (ix2 r c) k = ix2 k c := funext fun a => Fin.ext (by
    match a with
    | ⟨0, _⟩ => rfl
    | ⟨1, _⟩ => rfl)
  rw [el, er, v47_def, side_apply]

/-- `1 / (1 + exp (−z))`, the ones the float word of 1.0, is the logistic function of `z`. -/
theorem logistic_expansion (z : EReal) :
    FloatOps.hostDivf (F := Ideal) (φ := .f32) (FloatOps.ofBits .f32 0x3F800000#32)
      (FloatOps.addf (F := Ideal) (φ := .f32) (FloatOps.ofBits .f32 0x3F800000#32)
        (FloatOps.hostUnary (F := Ideal) (φ := .f32) .exp (FloatOps.hostNegf (F := Ideal) (φ := .f32) z)))
      = Ideal.logistic z := by
  rw [Ideal.ofBits_def, Ideal.ofBits_one_f32]
  rfl

/-- The gate. -/
theorem v70_eq : val_main_v70 (F := Ideal) x0 x1 x2 x3 x4 x5 x6 = gS x0 x1 x2 x3 x4 x5 x6 := by
  have h64 : val_main_v64 (F := Ideal) x0 x1 x2 x3 x4 x5 x6
      = addRow (aggOf (F := Ideal) x1 (dual (xgS x0 x1 x3 x4) x2 (topHalf x5) (botHalf x5))) (biasRow x6) := by
    rw [v64_def, addBias_eq, v61_eq, v48_eq, v46_eq]
  funext i
  rw [v70_apply, logistic_expansion, h64]
  rfl

/-- The third `dot_general`: `[x_gcn, g · h] · Wch = x_gcn · Wch[:96] + (g · h) · Wch[96:]`. -/
theorem v73_eq : val_main_v73 (F := Ideal) x0 x1 x2 x3 x4 x5 x6 x7
    = dual (val_main_v46 (F := Ideal) x0 x1 x3 x4) (val_main_v71 (F := Ideal) x0 x1 x2 x3 x4 x5 x6) (topHalf x7) (botHalf x7) := by
  funext i
  obtain ⟨r, c, rfl⟩ : ∃ (r : Fin 50000) (c : Fin 96), i = ix2 r c := ⟨i 0, i 1, eq_ix2 i⟩
  rw [val_main_v73_apply]
  refine (Finset.sum_congr rfl fun k _ => ?_).trans (dual_eq_sum192 _ _ x7 r c)
  have el : lidx_main_v73 (ix2 r c) k = ix2 r k := funext fun a => Fin.ext (by
    match a with
    | ⟨0, _⟩ => rfl
    | ⟨1, _⟩ => rfl)
  have er : ridx_main_v73 (ix2 r c) k = ix2 k c := funext fun a => Fin.ext (by
    match a with
    | ⟨0, _⟩ => rfl
    | ⟨1, _⟩ => rfl)
  rw [el, er, v72_def, side_apply]

/-- The gated hidden state. -/
theorem v71_eq : val_main_v71 (F := Ideal) x0 x1 x2 x3 x4 x5 x6 = had (gS x0 x1 x2 x3 x4 x5 x6) x2 := by
  funext i
  rw [v71_apply, v70_eq]
  rfl

/-- The reference's result is the cell. -/
theorem v95_eq : val_main_v95 (F := Ideal) x0 x1 x2 x3 x4 x5 x6 x7 x8 = outSpec x0 x1 x2 x3 x4 x5 x6 x7 x8 := by
  have h89 : val_main_v89 (F := Ideal) x0 x1 x2 x3 x4 x5 x6 x7 x8
      = addRow (aggOf (F := Ideal) x1 (dual (xgS x0 x1 x3 x4) (had (gS x0 x1 x2 x3 x4 x5 x6) x2) (topHalf x7) (botHalf x7))) (biasRow x8) := by
    rw [v89_def, addBias_eq, v86_eq, v73_eq, v46_eq, v71_eq]
  funext i
  rw [v95_apply, v70_eq, h89]
  unfold outSpec blend
  simp only [Ideal.addf_def, Ideal.mulf_def, Ideal.subf_def, Ideal.hostUnary_tanh_def, Ideal.ofBits_def]

end Cert.RefBridge

end
-- ==== Proof.RefRunH.lean ====
/-
  The reference's run, chunk by chunk.

  The reference is one straight line of 118 host operations. Read in one piece, the value of its result has to be
  computed THROUGH the two joins of computed arrays (`[x_gcn, h]` and `[x_gcn, g · h]`), whose operands a one-pass rewrite
  does not reach. So the line is read in six chunks, cut before each join and after each stretch that builds the graph:
  every chunk is a function of the buffer contents it starts from, and what a later chunk needs of an earlier one is a
  buffer's value (a stage function of the arguments) or a buffer left alone. Joined, the result buffer ends at the last
  stage `val_main_v95` of the arguments as launched, and no operation writes an argument.
-/
import proofs.«102963_j37297495998610_1_alg».proof.Proof.RefRead
import Idealize.ShloMosaic.Lib.Pipeline.Frame

set_option maxRecDepth 16384

noncomputable section

namespace Cert.ReferenceIdeal.RunH

open Idealize.ShloMosaic Idealize.ShloMosaic.TcCoe Idealize.ShloMosaic.StableHlo
open Idealize.SL Idealize.SL.Sem
open Cert.ReferenceIdeal Cert.ReferenceIdeal.Gen Cert.ReferenceIdeal.ValueP Cert.ReferenceIdeal.ReadP

variable {F : FTy → Type} [FloatOps F]

/-! ## What each chunk leaves alone -/

/-- Every operation of a literal chunk writes a reference of the stated list. -/
macro "chunk_writes_in_list" : tactic =>
  `(tactic| (simp only [List.Forall]
             repeat' apply And.intro
             all_goals (simp only [StableHlo.nullary_writes, StableHlo.unary_writes, StableHlo.binary_writes, StableHlo.ternary_writes,
                          StableHlo.quaternary_writes, StableHlo.reshape_writes, StableHlo.binaryIndexed_writes, StableHlo.unaryIndexed_writes,
                          StableHlo.nary_writes, Finset.singleton_subset_iff, List.mem_toFinset]
                        exact List.mem_map_of_mem (by decide))))

abbrev written1 : List (Ref sig .tc) :=
  [main_v0, main_v1, main_v2, main_v3, main_v4, main_v5, main_v6, main_cst, main_v7, main_cst_0, main_v8, main_v9, main_v10,
   main_cst_1, main_v11, main_v12, main_v13, main_cst_2]
theorem writes1 : (ops1 : List (HloOp τ sig (Elt F))).Forall fun op => op.writes ⊆ (written1.map (Proc.devRef (τ := τ) .tc)).toFinset := by
  chunk_writes_in_list
theorem keep1 (W : Valuation τ sig (Elt F)) (r : Ref sig .tc) (h : r ∉ written1) :
    after ops1 W (Proc.devRef .tc r) = W (Proc.devRef .tc r) := after_of_writes_sub ops1 W writes1 h

abbrev written2 : List (Ref sig .tc) := [main_call0_v0, main_call0_v1, main_v14]
theorem writes2 : (ops2 : List (HloOp τ sig (Elt F))).Forall fun op => op.writes ⊆ (written2.map (Proc.devRef (τ := τ) .tc)).toFinset := by
  chunk_writes_in_list
theorem keep2 (W : Valuation τ sig (Elt F)) (r : Ref sig .tc) (h : r ∉ written2) :
    after ops2 W (Proc.devRef .tc r) = W (Proc.devRef .tc r) := after_of_writes_sub ops2 W writes2 h

abbrev written3 : List (Ref sig .tc) :=
  [main_c, main_v15, main_v16, main_c_3, main_v17, main_v18, main_v19, main_v20, main_v21, main_c_4, main_v22, main_v23, main_c_5,
   main_v24, main_v25, main_v26, main_v27, main_v28, main_v29]
theorem writes3 : (ops3 : List (HloOp τ sig (Elt F))).Forall fun op => op.writes ⊆ (written3.map (Proc.devRef (τ := τ) .tc)).toFinset := by
  chunk_writes_in_list
theorem keep3 (W : Valuation τ sig (Elt F)) (r : Ref sig .tc) (h : r ∉ written3) :
    after ops3 W (Proc.devRef .tc r) = W (Proc.devRef .tc r) := after_of_writes_sub ops3 W writes3 h

abbrev written4 : List (Ref sig .tc) :=
  [main_v30, main_c_6, main_v31, main_v32, main_c_7, main_v33, main_v34, main_v35, main_v36, main_v37, main_v38, main_v39, main_v40,
   main_cst_8, main_v41, main_v42, main_v43, main_v44, main_v45, main_v46]
theorem writes4 : (ops4 : List (HloOp τ sig (Elt F))).Forall fun op => op.writes ⊆ (written4.map (Proc.devRef (τ := τ) .tc)).toFinset := by
  chunk_writes_in_list
theorem keep4 (W : Valuation τ sig (Elt F)) (r : Ref sig .tc) (h : r ∉ written4) :
    after ops4 W (Proc.devRef .tc r) = W (Proc.devRef .tc r) := after_of_writes_sub ops4 W writes4 h

abbrev written5 : List (Ref sig .tc) :=
  [main_v47, main_v48, main_c_9, main_v49, main_v50, main_c_10, main_v51, main_v52, main_v53, main_v54, main_v55, main_v56, main_v57,
   main_v58, main_cst_11, main_v59, main_v60, main_v61, main_v62, main_v63, main_v64, main_v65, main_v66, main_cst_12, main_v67,
   main_v68, main_cst_13, main_v69, main_v70, main_v71]
theorem writes5 : (ops5 : List (HloOp τ sig (Elt F))).Forall fun op => op.writes ⊆ (written5.map (Proc.devRef (τ := τ) .tc)).toFinset := by
  chunk_writes_in_list
theorem keep5 (W : Valuation τ sig (Elt F)) (r : Ref sig .tc) (h : r ∉ written5) :
    after ops5 W (Proc.devRef .tc r) = W (Proc.devRef .tc r) := after_of_writes_sub ops5 W writes5 h

abbrev written6 : List (Ref sig .tc) :=
  [main_v72, main_v73, main_c_14, main_v74, main_v75, main_c_15, main_v76, main_v77, main_v78, main_v79, main_v80, main_v81, main_v82,
   main_v83, main_cst_16, main_v84, main_v85, main_v86, main_v87, main_v88, main_v89, main_v90, main_v91, main_cst_17, main_v92,
   main_v93, main_v94, main_v95]
theorem writes6 : (ops6 : List (HloOp τ sig (Elt F))).Forall fun op => op.writes ⊆ (written6.map (Proc.devRef (τ := τ) .tc)).toFinset := by
  chunk_writes_in_list
theorem keep6 (W : Valuation τ sig (Elt F)) (r : Ref sig .tc) (h : r ∉ written6) :
    after ops6 W (Proc.devRef .tc r) = W (Proc.devRef .tc r) := after_of_writes_sub ops6 W writes6 h

/-- The whole line as its six chunks, one after the other. -/
theorem after_chunks (W : Valuation τ sig (Elt F)) :
    after ops W = after ops6 (after ops5 (after ops4 (after ops3 (after ops2 (after ops1 W))))) := by
  rw [ops_chunks, after_append, after_append, after_append, after_append, after_append]

/-- A buffer no operation writes ends as it started. -/
theorem keep_all (W : Valuation τ sig (Elt F)) (r : Ref sig .tc) (h1 : r ∉ written1) (h2 : r ∉ written2) (h3 : r ∉ written3)
    (h4 : r ∉ written4) (h5 : r ∉ written5) (h6 : r ∉ written6) : after ops W (Proc.devRef .tc r) = W (Proc.devRef .tc r) := by
  rw [after_chunks]
  exact (keep6 _ r h6).trans ((keep5 _ r h5).trans ((keep4 _ r h4).trans ((keep3 _ r h3).trans ((keep2 _ r h2).trans (keep1 _ r h1)))))

/-! ## What each chunk computes -/

theorem c1_src (W : Valuation τ sig (Elt F)) :
    after ops1 W (Proc.devRef .tc main_v3) = val_main_v3 (F := F) (W (Proc.devRef .tc main_arg1)) := by
  simp only [ops1]
  after_results_simp
  rfl
theorem c1_dst (W : Valuation τ sig (Elt F)) :
    after ops1 W (Proc.devRef .tc main_v6) = val_main_v6 (F := F) (W (Proc.devRef .tc main_arg1)) := by
  simp only [ops1]
  after_results_simp
  rfl
theorem c1_pos (W : Valuation τ sig (Elt F)) :
    after ops1 W (Proc.devRef .tc main_v12) = val_main_v12 (F := F) (W (Proc.devRef .tc main_arg1)) := by
  simp only [ops1]
  after_results_simp
  rfl
theorem c1_rsqrt (W : Valuation τ sig (Elt F)) :
    after ops1 W (Proc.devRef .tc main_v13) = val_main_v13 (F := F) (W (Proc.devRef .tc main_arg1)) := by
  simp only [ops1]
  after_results_simp
  rfl
theorem c1_zero (W : Valuation τ sig (Elt F)) :
    after ops1 W (Proc.devRef .tc main_cst_2) = val_main_cst_2 (F := F) := by
  simp only [ops1]
  after_results_simp
  rfl

theorem c2_dinv (W : Valuation τ sig (Elt F)) (x1 : (⟨S2x800000, .i32⟩ : BufTy).Contents (Elt F))
    (h12 : W (Proc.devRef .tc main_v12) = val_main_v12 (F := F) x1) (h13 : W (Proc.devRef .tc main_v13) = val_main_v13 (F := F) x1)
    (hz : W (Proc.devRef .tc main_cst_2) = val_main_cst_2 (F := F)) :
    after ops2 W (Proc.devRef .tc main_v14) = val_main_v14 (F := F) x1 := by
  simp only [ops2]
  after_results_simp
  try simp only [TRef.ofBuf, TRef.toBuf, cast_eq]
  rw [h12, h13, hz]
  rfl

theorem c3_nrm (W : Valuation τ sig (Elt F)) (x1 : (⟨S2x800000, .i32⟩ : BufTy).Contents (Elt F))
    (hs : W (Proc.devRef .tc main_v3) = val_main_v3 (F := F) x1) (hd : W (Proc.devRef .tc main_v6) = val_main_v6 (F := F) x1)
    (h14 : W (Proc.devRef .tc main_v14) = val_main_v14 (F := F) x1) :
    after ops3 W (Proc.devRef .tc main_v29) = val_main_v29 (F := F) x1 := by
  simp only [ops3]
  after_results_simp
  rw [hs, hd, h14]
  rfl

theorem c4_xg (W : Valuation τ sig (Elt F)) (x0 : (⟨S50000x96, .f32⟩ : BufTy).Contents (Elt F)) (x1 : (⟨S2x800000, .i32⟩ : BufTy).Contents (Elt F))
    (x3 : (⟨S96x96, .f32⟩ : BufTy).Contents (Elt F)) (x4 : (⟨S96, .f32⟩ : BufTy).Contents (Elt F))
    (h0 : W (Proc.devRef .tc main_arg0) = x0) (h3 : W (Proc.devRef .tc main_arg3) = x3) (h4 : W (Proc.devRef .tc main_arg4) = x4)
    (hs : W (Proc.devRef .tc main_v3) = val_main_v3 (F := F) x1) (hd : W (Proc.devRef .tc main_v6) = val_main_v6 (F := F) x1)
    (hn : W (Proc.devRef .tc main_v29) = val_main_v29 (F := F) x1) :
    after ops4 W (Proc.devRef .tc main_v46) = val_main_v46 (F := F) x0 x1 x3 x4 := by
  simp only [ops4]
  after_results_simp
  rw [h0, h3, h4, hs, hd, hn]
  rfl

theorem c5_g (W : Valuation τ sig (Elt F)) (x0 : (⟨S50000x96, .f32⟩ : BufTy).Contents (Elt F)) (x1 : (⟨S2x800000, .i32⟩ : BufTy).Contents (Elt F))
    (x2 : (⟨S50000x96, .f32⟩ : BufTy).Contents (Elt F)) (x3 : (⟨S96x96, .f32⟩ : BufTy).Contents (Elt F)) (x4 : (⟨S96, .f32⟩ : BufTy).Contents (Elt F))
    (x5 : (⟨S192x96, .f32⟩ : BufTy).Contents (Elt F)) (x6 : (⟨S96, .f32⟩ : BufTy).Contents (Elt F))
    (h46 : W (Proc.devRef .tc main_v46) = val_main_v46 (F := F) x0 x1 x3 x4) (h2 : W (Proc.devRef .tc main_arg2) = x2)
    (h5 : W (Proc.devRef .tc main_arg5) = x5) (h6 : W (Proc.devRef .tc main_arg6) = x6)
    (hs : W (Proc.devRef .tc main_v3) = val_main_v3 (F := F) x1) (hd : W (Proc.devRef .tc main_v6) = val_main_v6 (F := F) x1)
    (hn : W (Proc.devRef .tc main_v29) = val_main_v29 (F := F) x1) :
    after ops5 W (Proc.devRef .tc main_v70) = val_main_v70 (F := F) x0 x1 x2 x3 x4 x5 x6 := by
  simp only [ops5]
  after_results_simp
  rw [h46, h2, h5, h6, hs, hd, hn]
  rfl

theorem c5_gh (W : Valuation τ sig (Elt F)) (x0 : (⟨S50000x96, .f32⟩ : BufTy).Contents (Elt F)) (x1 : (⟨S2x800000, .i32⟩ : BufTy).Contents (Elt F))
    (x2 : (⟨S50000x96, .f32⟩ : BufTy).Contents (Elt F)) (x3 : (⟨S96x96, .f32⟩ : BufTy).Contents (Elt F)) (x4 : (⟨S96, .f32⟩ : BufTy).Contents (Elt F))
    (x5 : (⟨S192x96, .f32⟩ : BufTy).Contents (Elt F)) (x6 : (⟨S96, .f32⟩ : BufTy).Contents (Elt F))
    (h46 : W (Proc.devRef .tc main_v46) = val_main_v46 (F := F) x0 x1 x3 x4) (h2 : W (Proc.devRef .tc main_arg2) = x2)
    (h5 : W (Proc.devRef .tc main_arg5) = x5) (h6 : W (Proc.devRef .tc main_arg6) = x6)
    (hs : W (Proc.devRef .tc main_v3) = val_main_v3 (F := F) x1) (hd : W (Proc.devRef .tc main_v6) = val_main_v6 (F := F) x1)
    (hn : W (Proc.devRef .tc main_v29) = val_main_v29 (F := F) x1) :
    after ops5 W (Proc.devRef .tc main_v71) = val_main_v71 (F := F) x0 x1 x2 x3 x4 x5 x6 := by
  simp only [ops5]
  after_results_simp
  rw [h46, h2, h5, h6, hs, hd, hn]
  rfl

theorem c6_out (W : Valuation τ sig (Elt F)) (x0 : (⟨S50000x96, .f32⟩ : BufTy).Contents (Elt F)) (x1 : (⟨S2x800000, .i32⟩ : BufTy).Contents (Elt F))
    (x2 : (⟨S50000x96, .f32⟩ : BufTy).Contents (Elt F)) (x3 : (⟨S96x96, .f32⟩ : BufTy).Contents (Elt F)) (x4 : (⟨S96, .f32⟩ : BufTy).Contents (Elt F))
    (x5 : (⟨S192x96, .f32⟩ : BufTy).Contents (Elt F)) (x6 : (⟨S96, .f32⟩ : BufTy).Contents (Elt F)) (x7 : (⟨S192x96, .f32⟩ : BufTy).Contents (Elt F))
    (x8 : (⟨S96, .f32⟩ : BufTy).Contents (Elt F))
    (h46 : W (Proc.devRef .tc main_v46) = val_main_v46 (F := F) x0 x1 x3 x4)
    (h70 : W (Proc.devRef .tc main_v70) = val_main_v70 (F := F) x0 x1 x2 x3 x4 x5 x6)
    (h71 : W (Proc.devRef .tc main_v71) = val_main_v71 (F := F) x0 x1 x2 x3 x4 x5 x6)
    (h2 : W (Proc.devRef .tc main_arg2) = x2) (h7 : W (Proc.devRef .tc main_arg7) = x7) (h8 : W (Proc.devRef .tc main_arg8) = x8)
    (hs : W (Proc.devRef .tc main_v3) = val_main_v3 (F := F) x1) (hd : W (Proc.devRef .tc main_v6) = val_main_v6 (F := F) x1)
    (hn : W (Proc.devRef .tc main_v29) = val_main_v29 (F := F) x1) :
    after ops6 W (Proc.devRef .tc main_v95) = val_main_v95 (F := F) x0 x1 x2 x3 x4 x5 x6 x7 x8 := by
  simp only [ops6]
  after_results_simp
  rw [h46, h70, h71, h2, h7, h8, hs, hd, hn]
  rfl

/-! ## The chunks joined -/

/-- After the whole line the result buffer holds the last stage of the arguments' contents. -/
theorem value (W : Valuation τ sig (Elt F)) :
    after ops W (Proc.devRef .tc main_v95)
      = val_main_v95 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) (W (Proc.devRef .tc main_arg6))
          (W (Proc.devRef .tc main_arg7)) (W (Proc.devRef .tc main_arg8)) := by
  rw [after_chunks]
  -- after chunk 1
  have s1 := c1_src W
  have d1 := c1_dst W
  -- after chunk 2
  have i2 := c2_dinv (after ops1 W) _ (c1_pos W) (c1_rsqrt W) (c1_zero W)
  have s2 := (keep2 (after ops1 W) main_v3 (by decide)).trans s1
  have d2 := (keep2 (after ops1 W) main_v6 (by decide)).trans d1
  -- after chunk 3
  have n3 := c3_nrm (after ops2 (after ops1 W)) _ s2 d2 i2
  have s3 := (keep3 (after ops2 (after ops1 W)) main_v3 (by decide)).trans s2
  have d3 := (keep3 (after ops2 (after ops1 W)) main_v6 (by decide)).trans d2
  have a3 : ∀ r : Ref sig .tc, r ∉ written1 → r ∉ written2 → r ∉ written3 →
      after ops3 (after ops2 (after ops1 W)) (Proc.devRef .tc r) = W (Proc.devRef .tc r) :=
    fun r h1 h2 h3 => (keep3 _ r h3).trans ((keep2 _ r h2).trans (keep1 _ r h1))
  -- after chunk 4
  have x4 := c4_xg (after ops3 (after ops2 (after ops1 W))) _ _ _ _ (a3 main_arg0 (by decide) (by decide) (by decide))
    (a3 main_arg3 (by decide) (by decide) (by decide)) (a3 main_arg4 (by decide) (by decide) (by decide)) s3 d3 n3
  have s4 := (keep4 (after ops3 (after ops2 (after ops1 W))) main_v3 (by decide)).trans s3
  have d4 := (keep4 (after ops3 (after ops2 (after ops1 W))) main_v6 (by decide)).trans d3
  have n4 := (keep4 (after ops3 (after ops2 (after ops1 W))) main_v29 (by decide)).trans n3
  have a4 : ∀ r : Ref sig .tc, r ∉ written1 → r ∉ written2 → r ∉ written3 → r ∉ written4 →
      after ops4 (after ops3 (after ops2 (after ops1 W))) (Proc.devRef .tc r) = W (Proc.devRef .tc r) :=
    fun r h1 h2 h3 h4 => (keep4 _ r h4).trans (a3 r h1 h2 h3)
  -- after chunk 5
  have g5 := c5_g (after ops4 (after ops3 (after ops2 (after ops1 W)))) _ _ _ _ _ _ _ x4
    (a4 main_arg2 (by decide) (by decide) (by decide) (by decide)) (a4 main_arg5 (by decide) (by decide) (by decide) (by decide))
    (a4 main_arg6 (by decide) (by decide) (by decide) (by decide)) s4 d4 n4
  have gh5 := c5_gh (after ops4 (after ops3 (after ops2 (after ops1 W)))) _ _ _ _ _ _ _ x4
    (a4 main_arg2 (by decide) (by decide) (by decide) (by decide)) (a4 main_arg5 (by decide) (by decide) (by decide) (by decide))
    (a4 main_arg6 (by decide) (by decide) (by decide) (by decide)) s4 d4 n4
  have x5 := (keep5 (after ops4 (after ops3 (after ops2 (after ops1 W)))) main_v46 (by decide)).trans x4
  have s5 := (keep5 (after ops4 (after ops3 (after ops2 (after ops1 W)))) main_v3 (by decide)).trans s4
  have d5 := (keep5 (after ops4 (after ops3 (after ops2 (after ops1 W)))) main_v6 (by decide)).trans d4
  have n5 := (keep5 (after ops4 (after ops3 (after ops2 (after ops1 W)))) main_v29 (by decide)).trans n4
  have a5 : ∀ r : Ref sig .tc, r ∉ written1 → r ∉ written2 → r ∉ written3 → r ∉ written4 → r ∉ written5 →
      after ops5 (after ops4 (after ops3 (after ops2 (after ops1 W)))) (Proc.devRef .tc r) = W (Proc.devRef .tc r) :=
    fun r h1 h2 h3 h4 h5 => (keep5 _ r h5).trans (a4 r h1 h2 h3 h4)
  -- chunk 6
  exact c6_out _ _ _ _ _ _ _ _ _ _ x5 g5 gh5 (a5 main_arg2 (by decide) (by decide) (by decide) (by decide) (by decide))
    (a5 main_arg7 (by decide) (by decide) (by decide) (by decide) (by decide))
    (a5 main_arg8 (by decide) (by decide) (by decide) (by decide) (by decide)) s5 d5 n5

/-- On every device, from any memory with zero counters: every weakly fair execution of the reference terminates with its
    result at the last stage of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = val_main_v95 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v95).trans (value (launchContents m c)),
       (h c main_arg0).trans (keep_all (launchContents m c) main_arg0 (by decide) (by decide) (by decide) (by decide) (by decide) (by decide)),
       (h c main_arg1).trans (keep_all (launchContents m c) main_arg1 (by decide) (by decide) (by decide) (by decide) (by decide) (by decide)),
       (h c main_arg2).trans (keep_all (launchContents m c) main_arg2 (by decide) (by decide) (by decide) (by decide) (by decide) (by decide)),
       (h c main_arg3).trans (keep_all (launchContents m c) main_arg3 (by decide) (by decide) (by decide) (by decide) (by decide) (by decide)),
       (h c main_arg4).trans (keep_all (launchContents m c) main_arg4 (by decide) (by decide) (by decide) (by decide) (by decide) (by decide)),
       (h c main_arg5).trans (keep_all (launchContents m c) main_arg5 (by decide) (by decide) (by decide) (by decide) (by decide) (by decide)),
       (h c main_arg6).trans (keep_all (launchContents m c) main_arg6 (by decide) (by decide) (by decide) (by decide) (by decide) (by decide)),
       (h c main_arg7).trans (keep_all (launchContents m c) main_arg7 (by decide) (by decide) (by decide) (by decide) (by decide) (by decide)),
       (h c main_arg8).trans (keep_all (launchContents m c) main_arg8 (by decide) (by decide) (by decide) (by decide) (by decide) (by decide))⟩)
    (run_seq scopedRefs_eq scopedSems_eq defs main (fun _ => ops) main_eq (fun _ => ops_sub) m ρ)

end Cert.ReferenceIdeal.RunH

end
-- ==== Proof.lean ====
/-
  A graph GRU cell in four fused dense kernels, against its plain reference: `Cert.Claim`.

  The kernel's program runs four row-tiled kernels (`x · Wx`; the biased aggregate and `x_gcn · Wuh[:96] + h · Wuh[96:]`; the
  logistic gate and `x_gcn · Wch[:96] + (g · h) · Wch[96:]`; the final blend) with the graph aggregation between them on the
  host. The reference computes the same cell with each pair of products as ONE product of two arrays set side by side with
  the whole `[192, 96]` matrix, and the gate as `1 / (1 + exp (−z))`. Over the extended reals a cut to bf16 is the identity,
  the sum over the 192 joined columns splits at 96 into the two products (sums only regroup: no input need be finite), and
  `1 / (1 + exp (−z))` is the logistic function by definition; the aggregation is the same operations in both programs and is
  never opened. So both result arrays are `Spec.outSpec` of the arguments.

  The frames of the two kernel programs are the generated ones; the reference's is its run with the result dropped; the
  idealization rewrote no operation.
-/
import proofs.«102963_j37297495998610_1_alg».proof.Defs
import proofs.«102963_j37297495998610_1_alg».proof.Proof.Gen.Kernel
import proofs.«102963_j37297495998610_1_alg».proof.Proof.Gen.Kernel.Frame
import proofs.«102963_j37297495998610_1_alg».proof.Proof.Gen.KernelIdeal
import proofs.«102963_j37297495998610_1_alg».proof.Proof.Gen.KernelIdeal.Frame
import proofs.«102963_j37297495998610_1_alg».proof.Proof.Gen.ReferenceIdeal
import proofs.«102963_j37297495998610_1_alg».proof.Proof.Gen.Pre_finite_inputs
import proofs.«102963_j37297495998610_1_alg».proof.Proof.KRun
import proofs.«102963_j37297495998610_1_alg».proof.Proof.KValue
import proofs.«102963_j37297495998610_1_alg».proof.Proof.RefBridge
import proofs.«102963_j37297495998610_1_alg».proof.Proof.RefRunH
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

/-- Both programs end with their result array at the cell `Spec.outSpec` of the arguments: the kernel's by the chain of its
    boundaries' contents, the reference's by its stages, its arguments those of the kernel's memory by agreement. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.outSpec (Cert.KernelIdeal.KValue.X0 m c) (Cert.KernelIdeal.KValue.X1 m c) (Cert.KernelIdeal.KValue.X2 m c)
      (Cert.KernelIdeal.KValue.X3 m c) (Cert.KernelIdeal.KValue.X4 m c) (Cert.KernelIdeal.KValue.X5 m c) (Cert.KernelIdeal.KValue.X6 m c)
      (Cert.KernelIdeal.KValue.X7 m c) (Cert.KernelIdeal.KValue.X8 m c), ?_, ?_⟩
  · exact (θ_run Cert.KernelIdeal.defs _ _).mono
      (fun r h c => ⟨(h c).1.trans (Cert.KernelIdeal.KValue.result m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RunH.run (F := Ideal) m' ρ')
    obtain ⟨e0, e1, e2, e3, e4, e5, e6, e7, e8⟩ := hagree c
    refine (Cert.RefBridge.v95_eq _ _ _ _ _ _ _ _ _).trans ?_
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
